-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x300 : Shape := ⟨3, ![16, 1024, 300]⟩
abbrev S1024x300 : Shape := ⟨2, ![1024, 300]⟩
abbrev S_ : Shape := ⟨0, ![]⟩

class Facts : Prop where
  bcast_S_S16x1024x300 : S_.BroadcastsInDim S16x1024x300 (![] : Fin 0 → Fin S16x1024x300.rank)
  reducesTo_S16x1024x300_S_d0_1_2 : S16x1024x300.ReducesTo [0, 1, 2] S_
  h_S_ : 0 < S_.numel
  bcast_S_S1024x300 : S_.BroadcastsInDim S1024x300 (![] : Fin 0 → Fin S1024x300.rank)
  reducesTo_S1024x300_S_d0_1 : S1024x300.ReducesTo [0, 1] S_

variable [Facts]

def fn_part1 {F : FTy → Type} [FloatOps F] (main_arg4 : FVec F S1024x300 .f32) (main_arg5 : FVec F S1024x300 .f32) (main_v13 : IVec S_ 1) (main_v16 : IVec S1024x300 1) : IVec S_ 1 :=
  let main_c_5 : IVec S_ 1 := constantI S_ 1 1#1
  let main_v17 : IVec S_ 1 := (fun x v => Host.reduce IntOp.andi x v reducesTo_S1024x300_S_d0_1 h_S_) main_v16 main_c_5
  let main_v18 : IVec S_ 1 := andi main_v13 main_v17
  let main_v19 : FVec F S1024x300 .f32 := Host.absf main_arg4
  let main_cst_6 : FVec F S_ .f32 := constant S_ .f32 0x7F800000#32
  let main_v20 : FVec F S1024x300 .f32 := broadcastInDim S1024x300 ![] bcast_S_S1024x300 main_cst_6
  let main_v21 : IVec S1024x300 1 := cmpf .olt main_v19 main_v20
  let main_c_7 : IVec S_ 1 := constantI S_ 1 1#1
  let main_v22 : IVec S_ 1 := (fun x v => Host.reduce IntOp.andi x v reducesTo_S1024x300_S_d0_1 h_S_) main_v21 main_c_7
  let main_v23 : IVec S_ 1 := andi main_v18 main_v22
  let main_v24 : FVec F S1024x300 .f32 := Host.absf main_arg5
  let main_cst_8 : FVec F S_ .f32 := constant S_ .f32 0x7F800000#32
  let main_v25 : FVec F S1024x300 .f32 := broadcastInDim S1024x300 ![] bcast_S_S1024x300 main_cst_8
  let main_v26 : IVec S1024x300 1 := cmpf .olt main_v24 main_v25
  let main_c_9 : IVec S_ 1 := constantI S_ 1 1#1
  let main_v27 : IVec S_ 1 := (fun x v => Host.reduce IntOp.andi x v reducesTo_S1024x300_S_d0_1 h_S_) main_v26 main_c_9
  let main_v28 : IVec S_ 1 := andi main_v23 main_v27
  main_v28

def fn {F : FTy → Type} [FloatOps F] (main_arg0 : FVec F S16x1024x300 .f32) (main_arg1 : FVec F S16x1024x300 .f32) (main_arg2 : FVec F S1024x300 .f32) (main_arg3 : FVec F S1024x300 .f32) (main_arg4 : FVec F S1024x300 .f32) (main_arg5 : FVec F S1024x300 .f32) : IVec S_ 1 :=
  let main_v0 : FVec F S16x1024x300 .f32 := Host.absf main_arg0
  let main_cst : FVec F S_ .f32 := constant S_ .f32 0x7F800000#32
  let main_v1 : FVec F S16x1024x300 .f32 := broadcastInDim S16x1024x300 ![] bcast_S_S16x1024x300 main_cst
  let main_v2 : IVec S16x1024x300 1 := cmpf .olt main_v0 main_v1
  let main_c : IVec S_ 1 := constantI S_ 1 1#1
  let main_v3 : IVec S_ 1 := (fun x v => Host.reduce IntOp.andi x v reducesTo_S16x1024x300_S_d0_1_2 h_S_) main_v2 main_c
  let main_v4 : FVec F S16x1024x300 .f32 := Host.absf main_arg1
  let main_cst_0 : FVec F S_ .f32 := constant S_ .f32 0x7F800000#32
  let main_v5 : FVec F S16x1024x300 .f32 := broadcastInDim S16x1024x300 ![] bcast_S_S16x1024x300 main_cst_0
  let main_v6 : IVec S16x1024x300 1 := cmpf .olt main_v4 main_v5
  let main_c_1 : IVec S_ 1 := constantI S_ 1 1#1
  let main_v7 : IVec S_ 1 := (fun x v => Host.reduce IntOp.andi x v reducesTo_S16x1024x300_S_d0_1_2 h_S_) main_v6 main_c_1
  let main_v8 : IVec S_ 1 := andi main_v3 main_v7
  let main_v9 : FVec F S1024x300 .f32 := Host.absf main_arg2
  let main_cst_2 : FVec F S_ .f32 := constant S_ .f32 0x7F800000#32
  let main_v10 : FVec F S1024x300 .f32 := broadcastInDim S1024x300 ![] bcast_S_S1024x300 main_cst_2
  let main_v11 : IVec S1024x300 1 := cmpf .olt main_v9 main_v10
  let main_c_3 : IVec S_ 1 := constantI S_ 1 1#1
  let main_v12 : IVec S_ 1 := (fun x v => Host.reduce IntOp.andi x v reducesTo_S1024x300_S_d0_1 h_S_) main_v11 main_c_3
  let main_v13 : IVec S_ 1 := andi main_v8 main_v12
  let main_v14 : FVec F S1024x300 .f32 := Host.absf main_arg3
  let main_cst_4 : FVec F S_ .f32 := constant S_ .f32 0x7F800000#32
  let main_v15 : FVec F S1024x300 .f32 := broadcastInDim S1024x300 ![] bcast_S_S1024x300 main_cst_4
  let main_v16 : IVec S1024x300 1 := cmpf .olt main_v14 main_v15
  fn_part1 (F := F) main_arg4 main_arg5 main_v13 main_v16
-- ==== Kernel.lean ====
abbrev S16x1024x300 : Shape := ⟨3, ![16, 1024, 300]⟩
abbrev S1024x300 : Shape := ⟨2, ![1024, 300]⟩
abbrev S16x1024x1024 : Shape := ⟨3, ![16, 1024, 1024]⟩
abbrev S1x1024x300 : Shape := ⟨3, ![1, 1024, 300]⟩
abbrev S1x1024x1024 : Shape := ⟨3, ![1, 1024, 1024]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16x1024x300, .f32⟩
  | .hbm, ⟨1, _⟩ => ⟨S16x1024x300, .f32⟩
  | .hbm, ⟨2, _⟩ => ⟨S1024x300, .f32⟩
  | .hbm, ⟨3, _⟩ => ⟨S1024x300, .f32⟩
  | .hbm, ⟨4, _⟩ => ⟨S1024x300, .f32⟩
  | .hbm, ⟨5, _⟩ => ⟨S1024x300, .f32⟩
  | .hbm, ⟨6, _⟩ => ⟨S16x1024x1024, .f32⟩
  | .local _ .vmem, ⟨0, _⟩ => ⟨S1x1024x300, .f32⟩
  | .local _ .vmem, ⟨1, _⟩ => ⟨S1x1024x300, .f32⟩
  | .local _ .vmem, ⟨2, _⟩ => ⟨S1x1024x300, .f32⟩
  | .local _ .vmem, ⟨3, _⟩ => ⟨S1x1024x300, .f32⟩
  | .local _ .vmem, ⟨4, _⟩ => ⟨S1024x300, .f32⟩
  | .local _ .vmem, ⟨5, _⟩ => ⟨S1024x300, .f32⟩
  | .local _ .vmem, ⟨6, _⟩ => ⟨S1024x300, .f32⟩
  | .local _ .vmem, ⟨7, _⟩ => ⟨S1024x300, .f32⟩
  | .local _ .vmem, ⟨8, _⟩ => ⟨S1x1024x1024, .f32⟩
  | .local _ .vmem, ⟨9, _⟩ => ⟨S1x1024x1024, .f32⟩
  | _, _ => ⟨S16x1024x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c3_i32 : BitVec 32 := 3#32
  let v8 : BitVec 32 := Scalar.addi c0_i32 c3_i32
  let c1_i32 : BitVec 32 := 1#32
  ⟨c0_i32, v8, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1024x300_S1024x300_0_0 : ∀ a, (![0, 0] : Fin 2 → Nat) a + S1024x300.size a ≤ S1024x300.size a
  h_S1024x300 : 0 < S1024x300.numel
  inb_S1x1024x300_S1x1024x300_0_0_0 : ∀ a, (![0, 0, 0] : Fin 3 → Nat) a + S1x1024x300.size a ≤ S1x1024x300.size a
  h_S1x1024x300 : 0 < S1x1024x300.numel
  shapeCasts_S1x1024x300_S1024x300 : S1x1024x300.ShapeCasts S1024x300
  reduces_S1024x300_S1024 : S1024x300.Reduces [1] S1024
  shapeCasts_S1024_S1024x1 : S1024.ShapeCasts S1024x1
  bitsLt_bf16_f32 : FTy.bits .bf16 < FTy.bits .f32
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x300_S1024x300_S1024x1024_1_1_0_0_n_n_wf : DotDims.WF S1024x300 S1024x300 S1024x1024 [1] [1] [0] [0] [] []
  dot_S1024x1024_S1024x300_S1024x300_1_0_0_1_n_n_wf : DotDims.WF S1024x1024 S1024x300 S1024x300 [1] [0] [0] [1] [] []
  dot_S1024x1024_S1024x300_S1024x300_0_0_1_1_n_n_wf : DotDims.WF S1024x1024 S1024x300 S1024x300 [0] [0] [1] [1] [] []
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x300.size a ≤ S16x1024x300.size a
  hwx0_0 : ∀ i : grid0.Coords, EltTy.bits .f32 = 32 ∨ (Rect.block (s := S16x1024x300) S1x1024x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x300.size a ≤ S16x1024x300.size a
  hwx0_1 : ∀ i : grid0.Coords, EltTy.bits .f32 = 32 ∨ (Rect.block (s := S16x1024x300) S1x1024x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x300.size a ≤ S1024x300.size a
  hwx0_2 : ∀ i : grid0.Coords, EltTy.bits .f32 = 32 ∨ (Rect.block (s := S1024x300) S1024x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x300.size a ≤ S1024x300.size a
  hwx0_3 : ∀ i : grid0.Coords, EltTy.bits .f32 = 32 ∨ (Rect.block (s := S1024x300) S1024x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x300.size a ≤ S1024x300.size a
  hwx0_4 : ∀ i : grid0.Coords, EltTy.bits .f32 = 32 ∨ (Rect.block (s := S1024x300) S1024x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x300.size a ≤ S1024x300.size a
  hwx0_5 : ∀ i : grid0.Coords, EltTy.bits .f32 = 32 ∨ (Rect.block (s := S1024x300) S1024x300.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1024.size a ≤ S16x1024x1024.size a
  hwx0_6 : ∀ i : grid0.Coords, EltTy.bits .f32 = 32 ∨ (Rect.block (s := S16x1024x1024) S1x1024x1024.size (cc0_transform_6 i) (hinb0_6 i)).WholeWords (EltTy.packing .f32)

variable [Facts₀]

def dot_S1024x300_S1024x300_S1024x1024_1_1_0_0_n_n : DotDims S1024x300 S1024x300 S1024x1024 where
  lhsContracting := [1]
  rhsContracting := [1]
  lhsNonContracting := [0]
  rhsNonContracting := [0]
  lhsBatch := []
  rhsBatch := []
  wf := dot_S1024x300_S1024x300_S1024x1024_1_1_0_0_n_n_wf
def dot_S1024x1024_S1024x300_S1024x300_1_0_0_1_n_n : DotDims S1024x1024 S1024x300 S1024x300 where
  lhsContracting := [1]
  rhsContracting := [0]
  lhsNonContracting := [0]
  rhsNonContracting := [1]
  lhsBatch := []
  rhsBatch := []
  wf := dot_S1024x1024_S1024x300_S1024x300_1_0_0_1_n_n_wf
def dot_S1024x1024_S1024x300_S1024x300_0_0_1_1_n_n : DotDims S1024x1024 S1024x300 S1024x300 where
  lhsContracting := [0]
  rhsContracting := [0]
  lhsNonContracting := [1]
  rhsNonContracting := [1]
  lhsBatch := []
  rhsBatch := []
  wf := dot_S1024x1024_S1024x300_S1024x300_0_0_1_1_n_n_wf

abbrev win0_0 : Pipeline.Window sig grid0 :=
  Pipeline.Window.ofSpec (Memref.whole main_arg0) S1x1024x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x1024x300 : Shape := ⟨3, ![16, 1024, 300]⟩
abbrev S1024x300 : Shape := ⟨2, ![1024, 300]⟩
abbrev S_ : Shape := ⟨0, ![]⟩
abbrev S16x1024 : Shape := ⟨2, ![16, 1024]⟩
abbrev S16x1024x1024 : Shape := ⟨3, ![16, 1024, 1024]⟩
abbrev S16x1024x1 : Shape := ⟨3, ![16, 1024, 1]⟩
abbrev S16x1x1024 : Shape := ⟨3, ![16, 1, 1024]⟩
abbrev S1x1024x300 : Shape := ⟨3, ![1, 1024, 300]⟩

abbrev nBuf : Space → Nat
  | .hbm => 197
  | .vmem => 0
  | .smem => 0
  | _ => 0

abbrev hbmTy0_0 (i : Nat) : BufTy := match i % 128 with
  | 0 => ⟨S16x1024x300, .f32⟩
  | 1 => ⟨S16x1024x300, .f32⟩
  | 2 => ⟨S1024x300, .f32⟩
  | 3 => ⟨S1024x300, .f32⟩
  | 4 => ⟨S1024x300, .f32⟩
  | 5 => ⟨S1024x300, .f32⟩
  | 6 => ⟨S16x1024x300, .f32⟩
  | 7 => ⟨S_, .f32⟩
  | 8 => ⟨S16x1024, .f32⟩
  | 9 => ⟨S16x1024x300, .f32⟩
  | 10 => ⟨S_, .f32⟩
  | 11 => ⟨S16x1024, .f32⟩
  | 12 => ⟨S16x1024x1024, .f32⟩
  | 13 => ⟨S16x1024x1, .f32⟩
  | 14 => ⟨S16x1x1024, .f32⟩
  | 15 => ⟨S16x1024x1024, .f32⟩
  | 16 => ⟨S16x1024x1024, .f32⟩
  | 17 => ⟨S16x1024x1024, .f32⟩
  | 18 => ⟨S_, .f32⟩
  | 19 => ⟨S16x1024x1024, .f32⟩
  | 20 => ⟨S16x1024x1024, .f32⟩
  | 21 => ⟨S16x1024x1024, .f32⟩
  | 22 => ⟨S_, .f32⟩
  | 23 => ⟨S16x1024x1024, .f32⟩
  | 24 => ⟨S16x1024x1024, .f32⟩
  | 25 => ⟨S16x1024x1024, .f32⟩
  | 26 => ⟨S16x1024x1024, .f32⟩
  | 27 => ⟨S16x1024x300, .f32⟩
  | 28 => ⟨S16x1024x300, .f32⟩
  | 29 => ⟨S16x1024x300, .f32⟩
  | 30 => ⟨S16x1024x300, .f32⟩
  | 31 => ⟨S16x1024x300, .f32⟩
  | 32 => ⟨S16x1024x300, .f32⟩
  | 33 => ⟨S1x1024x300, .f32⟩
  | 34 => ⟨S16x1024x300, .f32⟩
  | 35 => ⟨S16x1024x300, .f32⟩
  | 36 => ⟨S1x1024x300, .f32⟩
  | 37 => ⟨S16x1024x300, .f32⟩
  | 38 => ⟨S16x1024x300, .f32⟩
  | 39 => ⟨S16x1024x300, .f32⟩
  | 40 => ⟨S_, .f32⟩
  | 41 => ⟨S_, .f32⟩
  | 42 => ⟨S16x1024x300, .f32⟩
  | 43 => ⟨S16x1024x300, .i1⟩
  | 44 => ⟨S_, .f32⟩
  | 45 => ⟨S16x1024x300, .f32⟩
  | 46 => ⟨S16x1024x300, .f32⟩
  | 47 => ⟨S16x1024x300, .f32⟩
  | 48 => ⟨S1x1024x300, .f32⟩
  | 49 => ⟨S16x1024x300, .f32⟩
  | 50 => ⟨S16x1024x300, .f32⟩
  | 51 => ⟨S1x1024x300, .f32⟩
  | 52 => ⟨S16x1024x300, .f32⟩
  | 53 => ⟨S16x1024x300, .f32⟩
  | 54 => ⟨S16x1024x300, .f32⟩
  | 55 => ⟨S_, .f32⟩
  | 56 => ⟨S_, .f32⟩
  | 57 => ⟨S16x1024x300, .f32⟩
  | 58 => ⟨S16x1024x300, .i1⟩
  | 59 => ⟨S_, .f32⟩
  | 60 => ⟨S16x1024x300, .f32⟩
  | 61 => ⟨S16x1024x300, .f32⟩
  | 62 => ⟨S16x1024x300, .f32⟩
  | 63 => ⟨S16x1024x300, .f32⟩
  | 64 => ⟨S_, .f32⟩
  | 65 => ⟨S16x1024, .f32⟩
  | 66 => ⟨S16x1024x300, .f32⟩
  | 67 => ⟨S_, .f32⟩
  | 68 => ⟨S16x1024, .f32⟩
  | 69 => ⟨S16x1024x1024, .f32⟩
  | 70 => ⟨S16x1024x1, .f32⟩
  | 71 => ⟨S16x1x1024, .f32⟩
  | 72 => ⟨S16x1024x1024, .f32⟩
  | 73 => ⟨S16x1024x1024, .f32⟩
  | 74 => ⟨S16x1024x1024, .f32⟩
  | 75 => ⟨S_, .f32⟩
  | 76 => ⟨S16x1024x1024, .f32⟩
  | 77 => ⟨S16x1024x1024, .f32⟩
  | 78 => ⟨S16x1024x1024, .f32⟩
  | 79 => ⟨S_, .f32⟩
  | 80 => ⟨S16x1024x1024, .f32⟩
  | 81 => ⟨S16x1024x1024, .f32⟩
  | 82 => ⟨S16x1024x1024, .f32⟩
  | 83 => ⟨S16x1024x1024, .f32⟩
  | 84 => ⟨S16x1024x300, .f32⟩
  | 85 => ⟨S16x1024x300, .f32⟩
  | 86 => ⟨S16x1024x300, .f32⟩
  | 87 => ⟨S16x1024x300, .f32⟩
  | 88 => ⟨S16x1024x300, .f32⟩
  | 89 => ⟨S16x1024x300, .f32⟩
  | 90 => ⟨S1x1024x300, .f32⟩
  | 91 => ⟨S16x1024x300, .f32⟩
  | 92 => ⟨S16x1024x300, .f32⟩
  | 93 => ⟨S1x1024x300, .f32⟩
  | 94 => ⟨S16x1024x300, .f32⟩
  | 95 => ⟨S16x1024x300, .f32⟩
  | 96 => ⟨S16x1024x300, .f32⟩
  | 97 => ⟨S_, .f32⟩
  | 98 => ⟨S_, .f32⟩
  | 99 => ⟨S16x1024x300, .f32⟩
  | 100 => ⟨S16x1024x300, .i1⟩
  | 101 => ⟨S_, .f32⟩
  | 102 => ⟨S16x1024x300, .f32⟩
  | 103 => ⟨S16x1024x300, .f32⟩
  | 104 => ⟨S16x1024x300, .f32⟩
  | 105 => ⟨S1x1024x300, .f32⟩
  | 106 => ⟨S16x1024x300, .f32⟩
  | 107 => ⟨S16x1024x300, .f32⟩
  | 108 => ⟨S1x1024x300, .f32⟩
  | 109 => ⟨S16x1024x300, .f32⟩
  | 110 => ⟨S16x1024x300, .f32⟩
  | 111 => ⟨S16x1024x300, .f32⟩
  | 112 => ⟨S_, .f32⟩
  | 113 => ⟨S_, .f32⟩
  | 114 => ⟨S16x1024x300, .f32⟩
  | 115 => ⟨S16x1024x300, .i1⟩
  | 116 => ⟨S_, .f32⟩
  | 117 => ⟨S16x1024x300, .f32⟩
  | 118 => ⟨S16x1024x300, .f32⟩
  | 119 => ⟨S16x1024x300, .f32⟩
  | 120 => ⟨S16x1024x300, .f32⟩
  | 121 => ⟨S_, .f32⟩
  | 122 => ⟨S16x1024, .f32⟩
  | 123 => ⟨S16x1024x300, .f32⟩
  | 124 => ⟨S_, .f32⟩
  | 125 => ⟨S16x1024, .f32⟩
  | 126 => ⟨S16x1024x1024, .f32⟩
  | 127 => ⟨S16x1024x1, .f32⟩
  | _ => ⟨S16x1024x300, .f32⟩

abbrev hbmTy0_1 (i : Nat) : BufTy := match i % 128 with
  | 0 => ⟨S16x1x1024, .f32⟩
  | 1 => ⟨S16x1024x1024, .f32⟩
  | 2 => ⟨S16x1024x1024, .f32⟩
  | 3 => ⟨S16x1024x1024, .f32⟩
  | 4 => ⟨S_, .f32⟩
  | 5 => ⟨S16x1024x1024, .f32⟩
  | 6 => ⟨S16x1024x1024, .f32⟩
  | 7 => ⟨S16x1024x1024, .f32⟩
  | 8 => ⟨S_, .f32⟩
  | 9 => ⟨S16x1024x1024, .f32⟩
  | 10 => ⟨S16x1024x1024, .f32⟩
  | 11 => ⟨S16x1024x1024, .f32⟩
  | 12 => ⟨S16x1024x1024, .f32⟩
  | 13 => ⟨S16x1024x300, .f32⟩
  | 14 => ⟨S16x1024x300, .f32⟩
  | 15 => ⟨S16x1024x300, .f32⟩
  | 16 => ⟨S16x1024x300, .f32⟩
  | 17 => ⟨S16x1024x300, .f32⟩
  | 18 => ⟨S16x1024x300, .f32⟩
  | 19 => ⟨S1x1024x300, .f32⟩
  | 20 => ⟨S16x1024x300, .f32⟩
  | 21 => ⟨S16x1024x300, .f32⟩
  | 22 => ⟨S1x1024x300, .f32⟩
  | 23 => ⟨S16x1024x300, .f32⟩
  | 24 => ⟨S16x1024x300, .f32⟩
  | 25 => ⟨S16x1024x300, .f32⟩
  | 26 => ⟨S_, .f32⟩
  | 27 => ⟨S_, .f32⟩
  | 28 => ⟨S16x1024x300, .f32⟩
  | 29 => ⟨S16x1024x300, .i1⟩
  | 30 => ⟨S_, .f32⟩
  | 31 => ⟨S16x1024x300, .f32⟩
  | 32 => ⟨S16x1024x300, .f32⟩
  | 33 => ⟨S16x1024x300, .f32⟩
  | 34 => ⟨S1x1024x300, .f32⟩
  | 35 => ⟨S16x1024x300, .f32⟩
  | 36 => ⟨S16x1024x300, .f32⟩
  | 37 => ⟨S1x1024x300, .f32⟩
  | 38 => ⟨S16x1024x300, .f32⟩
  | 39 => ⟨S16x1024x300, .f32⟩
  | 40 => ⟨S16x1024x300, .f32⟩
  | 41 => ⟨S_, .f32⟩
  | 42 => ⟨S_, .f32⟩
  | 43 => ⟨S16x1024x300, .f32⟩
  | 44 => ⟨S16x1024x300, .i1⟩
  | 45 => ⟨S_, .f32⟩
  | 46 => ⟨S16x1024x300, .f32⟩
  | 47 => ⟨S16x1024x300, .f32⟩
  | 48 => ⟨S16x1024x300, .f32⟩
  | 49 => ⟨S16x1024x300, .f32⟩
  | 50 => ⟨S_, .f32⟩
  | 51 => ⟨S16x1024, .f32⟩
  | 52 => ⟨S16x1024x300, .f32⟩
  | 53 => ⟨S_, .f32⟩
  | 54 => ⟨S16x1024, .f32⟩
  | 55 => ⟨S16x1024x1024, .f32⟩
  | 56 => ⟨S16x1024x1, .f32⟩
  | 57 => ⟨S16x1x1024, .f32⟩
  | 58 => ⟨S16x1024x1024, .f32⟩
  | 59 => ⟨S16x1024x1024, .f32⟩
  | 60 => ⟨S16x1024x1024, .f32⟩
  | 61 => ⟨S_, .f32⟩
  | 62 => ⟨S16x1024x1024, .f32⟩
  | 63 => ⟨S16x1024x1024, .f32⟩
  | 64 => ⟨S16x1024x1024, .f32⟩
  | 65 => ⟨S_, .f32⟩
  | 66 => ⟨S16x1024x1024, .f32⟩
  | 67 => ⟨S16x1024x1024, .f32⟩
  | 68 => ⟨S16x1024x1024, .f32⟩
  | _ => ⟨S16x1024x300, .f32⟩

abbrev hbmTy (i : Nat) : BufTy := match i / 128 with
  | 0 => hbmTy0_0 i
  | 1 => hbmTy0_1 i
  | _ => ⟨S16x1024x300, .f32⟩

abbrev bufTy : (tb : Table) → Fin (tcTables nBuf tb) → BufTy
  | .hbm, ⟨i, _⟩ => hbmTy i
  | _, _ => ⟨S16x1024x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v38 : Ref sig .tc := ⟨.hbm, 62, rfl⟩
abbrev main_v39 : Ref sig .tc := ⟨.hbm, 63, rfl⟩
abbrev main_cst_5 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_9 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_10 : Ref sig .tc := ⟨.hbm, 112, rfl⟩
abbrev main_call3_cst : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_v77 : Ref sig .tc := ⟨.hbm, 119, rfl⟩
abbrev main_v78 : Ref sig .tc := ⟨.hbm, 120, rfl⟩
abbrev main_cst_11 : Ref sig .tc := ⟨.hbm, 121, rfl⟩
abbrev main_v79 : Ref sig .tc := ⟨.hbm, 122, rfl⟩
abbrev main_v80 : Ref sig .tc := ⟨.hbm, 123, rfl⟩
abbrev main_cst_12 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_13 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_14 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_15 : Ref sig .tc := ⟨.hbm, 154, rfl⟩
abbrev main_call4_cst : Ref sig .tc := ⟨.hbm, 155, rfl⟩
abbrev main_call4_v0 : Ref sig .tc := ⟨.hbm, 156, rfl⟩
abbrev main_call4_v1 : Ref sig .tc := ⟨.hbm, 157, rfl⟩
abbrev main_call4_v2 : Ref sig .tc := ⟨.hbm, 158, rfl⟩
abbrev main_call4_v3 : Ref sig .tc := ⟨.hbm, 159, rfl⟩
abbrev main_call4_v4 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_16 : Ref sig .tc := ⟨.hbm, 169, rfl⟩
abbrev main_call5_cst : Ref sig .tc := ⟨.hbm, 170, rfl⟩
abbrev main_call5_v0 : Ref sig .tc := ⟨.hbm, 171, rfl⟩
abbrev main_call5_v1 : Ref sig .tc := ⟨.hbm, 172, rfl⟩
abbrev main_call5_v2 : Ref sig .tc := ⟨.hbm, 173, rfl⟩
abbrev main_call5_v3 : Ref sig .tc := ⟨.hbm, 174, rfl⟩
abbrev main_call5_v4 : Ref sig .tc := ⟨.hbm, 175, rfl⟩
abbrev main_v116 : Ref sig .tc := ⟨.hbm, 176, rfl⟩
abbrev main_v117 : Ref sig .tc := ⟨.hbm, 177, rfl⟩
abbrev main_cst_17 : Ref sig .tc := ⟨.hbm, 178, rfl⟩
abbrev main_v118 : Ref sig .tc := ⟨.hbm, 179, rfl⟩
abbrev main_v119 : Ref sig .tc := ⟨.hbm, 180, rfl⟩
abbrev main_cst_18 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_cst_19 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_cst_20 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩

abbrev nD : Nat := 1
abbrev τ : Topo := Topo.v7x

variable {F : FTy → Type} [FloatOps F]

class Facts₀ : Prop where
  reducesTo_S16x1024x300_S16x1024_d2 : S16x1024x300.ReducesTo [2] S16x1024
  h_S_ : 0 < S_.numel
  bcast_S16x1024_S16x1024x1_0_1 : S16x1024.BroadcastsInDim S16x1024x1 (![0, 1] : Fin 2 → Fin S16x1024x1.rank)
  bcast_S16x1024_S16x1x1024_0_2 : S16x1024.BroadcastsInDim S16x1x1024 (![0, 2] : Fin 2 → Fin S16x1x1024.rank)
  bcast_S16x1024x1_S16x1024x1024_0_1_2 : S16x1024x1.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  bcast_S_S16x1024x1024 : S_.BroadcastsInDim S16x1024x1024 (![] : Fin 0 → Fin S16x1024x1024.rank)
  transposes_S16x1024x1024_S16x1024x1024_0_2_1 : S16x1024x1024.Transposes [0, 2, 1] S16x1024x1024
  bcast_S1024x300_S1x1024x300_1_2 : S1024x300.BroadcastsInDim S1x1024x300 (![1, 2] : Fin 2 → Fin S1x1024x300.rank)
  bcast_S1x1024x300_S16x1024x300_0_1_2 : S1x1024x300.BroadcastsInDim S16x1024x300 (![0, 1, 2] : Fin 3 → Fin S16x1024x300.rank)
  bcast_S_S16x1024x300 : S_.BroadcastsInDim S16x1024x300 (![] : Fin 0 → Fin S16x1024x300.rank)
  dot_S16x1024x300_S16x1024x300_S16x1024x1024_2_2_1_1_0_0_wf : DotDims.WF S16x1024x300 S16x1024x300 S16x1024x1024 [2] [2] [1] [1] [0] [0]
  dot_S16x1024x1024_S16x1024x300_S16x1024x300_2_1_1_2_0_0_wf : DotDims.WF S16x1024x1024 S16x1024x300 S16x1024x300 [2] [1] [1] [2] [0] [0]

variable [Facts₀]

def dot_S16x1024x300_S16x1024x300_S16x1024x1024_2_2_1_1_0_0 : DotDims S16x1024x300 S16x1024x300 S16x1024x1024 where
  lhsContracting := [2]
  rhsContracting := [2]
  lhsNonContracting := [1]
  rhsNonContracting := [1]
  lhsBatch := [0]
  rhsBatch := [0]
  wf := dot_S16x1024x300_S16x1024x300_S16x1024x1024_2_2_1_1_0_0_wf
def dot_S16x1024x1024_S16x1024x300_S16x1024x300_2_1_1_2_0_0 : DotDims S16x1024x1024 S16x1024x300 S16x1024x300 where
  lhsContracting := [2]
  rhsContracting := [1]
  lhsNonContracting := [1]
  rhsNonContracting := [2]
  lhsBatch := [0]
  rhsBatch := [0]
  wf := dot_S16x1024x1024_S16x1024x300_S16x1024x300_2_1_1_2_0_0_wf

class Facts : Prop extends Facts₀ where

variable [Facts]
-- ==== Proof.Spec.lean ====
/-
  The mathematics both programs compute, per batch entry, on the extended reals.

  An entry has two arrays of 1024 rows and 300 columns, `h` (heads) and `d` (dependents), and four
  parameter arrays of the same extents, `W₁ B₁ W₂ B₂`.

  * The distance matrix of `h` and `d` is, at row `i` and column `j`,
    `√ max (‖hᵢ‖² + ‖dⱼ‖² - 2 · ⟨hᵢ, dⱼ⟩) 0`, the norms and the inner product sums over the 300 columns.
  * One layer takes `(h, d)` with `s` their distance matrix to
    `h' = ℓ (W₁ · (s h + sᵀ d) + B₁ · h)` and `d' = ℓ (W₂ · (sᵀ h + s d) + B₂ · d)`, the products with
    `s` matrix products over the 1024 rows, the others entrywise, `ℓ` the leaky rectifier
    `x ↦ x` where `0 ≤ x` and `c · x` elsewhere.
  * The result is the distance matrix of `(h, d)` after three layers.

  The two literal factors (`2` and the rectifier's slope `c`) and the literal zero are kept as the values of
  their binary words: both programs spell the same words, so their values are never needed.
-/
import Idealize.ShloMosaic.PureOps.Ideal
import Idealize.ShloMosaic.Lib.ValueIdx

noncomputable section

namespace Cert.Spec

open Idealize.ShloMosaic Idealize.ShloMosaic.ValueIdx

/-- A 1024 × 300 array of extended reals, by row and column. -/
abbrev Mat : Type := Fin 1024 → Fin 300 → EReal
/-- A 1024 × 1024 array of extended reals, by row and column. -/
abbrev Sq : Type := Fin 1024 → Fin 1024 → EReal

/-- The value of the word both programs write for the factor `2`. -/
def two : EReal := Ideal.ofBits .f32 0x40000000#32
/-- The value of the word both programs write for the rectifier's slope. -/
def slope : EReal := Ideal.ofBits .f32 0x3C23D70A#32
/-- The value of the word both programs write for zero. -/
def zero : EReal := Ideal.ofBits .f32 0x00000000#32

/-- The leaky rectifier: `x` where `zero ≤ x`, else `slope · x`. -/
def lrelu (x : EReal) : EReal := Scalar.select (Ideal.cmp .oge x zero) x (slope * x)

/-- The squared norm of row `i`. -/
def sqnorm (h : Mat) (i : Fin 1024) : EReal := ∑ k : Fin 300, h i k * h i k

/-- The inner product of row `i` of `h` with row `j` of `d`. -/
def inner (h d : Mat) (i j : Fin 1024) : EReal := ∑ k : Fin 300, h i k * d j k

/-- The distance matrix. -/
def dist (h d : Mat) : Sq := fun i j =>
  Ideal.sqrt (max (sqnorm h i + sqnorm d j - two * inner h d i j) zero)

/-- The heads' update: `ℓ (W · (s h + sᵀ d) + B · h)`. -/
def updH (W B : Mat) (s : Sq) (h d : Mat) : Mat := fun i k =>
  lrelu (W i k * ((∑ j : Fin 1024, s i j * h j k) + ∑ j : Fin 1024, s j i * d j k) + B i k * h i k)

/-- The dependents' update: `ℓ (W · (sᵀ h + s d) + B · d)`. -/
def updD (W B : Mat) (s : Sq) (h d : Mat) : Mat := fun i k =>
  lrelu (W i k * ((∑ j : Fin 1024, s j i * h j k) + ∑ j : Fin 1024, s i j * d j k) + B i k * d i k)

/-- One layer on the pair `(h, d)`. -/
def layer (W₁ B₁ W₂ B₂ : Mat) (p : Mat × Mat) : Mat × Mat :=
  (updH W₁ B₁ (dist p.1 p.2) p.1 p.2, updD W₂ B₂ (dist p.1 p.2) p.1 p.2)

/-- The result: the distance matrix after three layers. -/
def out (W₁ W₂ B₁ B₂ h d : Mat) : Sq :=
  dist (layer W₁ B₁ W₂ B₂ (layer W₁ B₁ W₂ B₂ (layer W₁ B₁ W₂ B₂ (h, d)))).1
    (layer W₁ B₁ W₂ B₂ (layer W₁ B₁ W₂ B₂ (layer W₁ B₁ W₂ B₂ (h, d)))).2

/-- A 1024 × 300 array given over shape indices, by row and column. -/
def mat2 (x : (⟨2, ![1024, 300]⟩ : Shape).Idx → EReal) : Mat := fun i k => x (ix2 i k)

/-- A 1024 × 1024 array given over shape indices, by row and column. -/
def sq2 (x : (⟨2, ![1024, 1024]⟩ : Shape).Idx → EReal) : Sq := fun i j => x (ix2 i j)

/-- Entry `b` of a batch of sixteen 1024 × 300 arrays. -/
def slice3 (x : (⟨3, ![16, 1024, 300]⟩ : Shape).Idx → EReal) (b : Fin 16) : Mat := fun i k => x (ix3 b i k)

/-- Entry `b` of a batch of sixteen 1024 × 1024 arrays. -/
def sqslice3 (x : (⟨3, ![16, 1024, 1024]⟩ : Shape).Idx → EReal) (b : Fin 16) : Sq := fun i j => x (ix3 b i j)

/-- The one entry of a batch of one 1024 × 300 array (a block as the kernel loads it). -/
def blk3 (x : (⟨3, ![1, 1024, 300]⟩ : Shape).Idx → EReal) : Mat := fun i k => x (ix3 0 i k)

end Cert.Spec

end
-- ==== Proof.KerPay.lean ====
/-
  The kernel body's pure values read at an index, on the extended reals: what one trip of the layer loop
  yields, and what the final store writes, as the specification's functions of the arrays read by row and column.
-/
import proofs.«114613_j33517924778635_1_alg».proof.Proof.Gen.KernelIdeal.Skeleton
import proofs.«114613_j33517924778635_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Cert.Spec Idealize.ShloMosaic Idealize.ShloMosaic.ValueIdx

/-! ## Layout operations at an index given by coordinates -/

/-- A vector of `a` entries viewed as a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along `b` columns reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sum over the columns -/

/-- The index the sum over the columns reads at row `i` and column `k`. -/
theorem lift_row (i : Fin 1024) (k : Fin 300) :
    reduces_S1024x300_S1024.lift (ix1 i) k = ix2 i k := by
  funext a
  match a with
  | ⟨0, _⟩ => exact Fin.ext rfl
  | ⟨1, _⟩ => exact Fin.ext rfl

/-- The sum of the squares over the columns, at row `i`, is the squared norm of that row. -/
theorem sqsum_apply (x : FVec Ideal S1024x300 .f32) (i : Fin 1024) :
    multiReduction (F := Ideal) .add [1] S1024 (mulf x x) 0x00000000#32 reduces_S1024x300_S1024 (.inl rfl) rfl (ix1 i)
      = sqnorm (mat2 x) i := by
  refine (Ideal.multiReduction_add_single (mulf x x) 0x00000000#32 reduces_S1024x300_S1024 (.inl rfl) rfl (ix1 i)).trans ?_
  show ∑ k : Fin 300, (mulf x x) (reduces_S1024x300_S1024.lift (ix1 i) k) = ∑ k : Fin 300, x (ix2 i k) * x (ix2 i k)
  refine Finset.sum_congr rfl fun k _ => ?_
  rw [lift_row, mulf_apply]

/-! ## The three matrix products

Each product contracts one axis of each operand. Its operand indices at result index `(i, j)` and contraction
position `q` are read coordinate by coordinate; the sum over the contraction positions is then the sum over that
axis's coordinates. -/

/-! ### Rows of the first with rows of the second: `(i, j) ↦ ∑ k, x i k * y j k` -/

theorem rr_lhs_0 (i j : Fin 1024) (q : dot_S1024x300_S1024x300_S1024x1024_1_1_0_0_n_n.contr.Idx) :
    (dot_S1024x300_S1024x300_S1024x1024_1_1_0_0_n_n.lhsIdx (ix2 i j) q 0).val = i.val := rfl

theorem rr_lhs_1 (i j : Fin 1024) (q : dot_S1024x300_S1024x300_S1024x1024_1_1_0_0_n_n.contr.Idx) :
    (dot_S1024x300_S1024x300_S1024x1024_1_1_0_0_n_n.lhsIdx (ix2 i j) q 1).val = (q ⟨0, Nat.one_pos⟩).val :=
  dot_S1024x300_S1024x300_S1024x1024_1_1_0_0_n_n.lhsIdx_val_of_single rfl (ix2 i j) q

theorem rr_rhs_0 (i j : Fin 1024) (q : dot_S1024x300_S1024x300_S1024x1024_1_1_0_0_n_n.contr.Idx) :
    (dot_S1024x300_S1024x300_S1024x1024_1_1_0_0_n_n.rhsIdx (ix2 i j) q 0).val = j.val := rfl

theorem rr_rhs_1 (i j : Fin 1024) (q : dot_S1024x300_S1024x300_S1024x1024_1_1_0_0_n_n.contr.Idx) :
    (dot_S1024x300_S1024x300_S1024x1024_1_1_0_0_n_n.rhsIdx (ix2 i j) q 1).val = (q ⟨0, Nat.one_pos⟩).val :=
  dot_S1024x300_S1024x300_S1024x1024_1_1_0_0_n_n.rhsIdx_val_of_single rfl (ix2 i j) q

/-- The product of rows with rows into a zero accumulator, at `(i, j)`. -/
theorem rr_apply (x y : FVec Ideal S1024x300 .bf16) (i j : Fin 1024) :
    matmul dot_S1024x300_S1024x300_S1024x1024_1_1_0_0_n_n none x y (constant (F := Ideal) S1024x1024 .f32 0x00000000#32) (ix2 i j)
      = ∑ k : Fin 300, x (ix2 i k) * y (ix2 j k) := by
  refine (Ideal.matmul_constant_zero_apply _ none x y (ix2 i j)).trans ?_
  refine (Equiv.sum_comp (contrEquiv1 dot_S1024x300_S1024x300_S1024x1024_1_1_0_0_n_n 300 rfl rfl).symm _).symm.trans ?_
  refine Finset.sum_congr rfl fun k _ => ?_
  have hl : dot_S1024x300_S1024x300_S1024x1024_1_1_0_0_n_n.lhsIdx (ix2 i j)
      ((contrEquiv1 dot_S1024x300_S1024x300_S1024x1024_1_1_0_0_n_n 300 rfl rfl).symm k) = ix2 i k := by
    funext a
    match a with
    | ⟨0, _⟩ => exact Fin.ext (rr_lhs_0 _ _ _)
    | ⟨1, _⟩ => exact Fin.ext ((rr_lhs_1 _ _ _).trans (contrEquiv1_symm_val _ 300 rfl rfl k))
  have hr : dot_S1024x300_S1024x300_S1024x1024_1_1_0_0_n_n.rhsIdx (ix2 i j)
      ((contrEquiv1 dot_S1024x300_S1024x300_S1024x1024_1_1_0_0_n_n 300 rfl rfl).symm k) = ix2 j k := by
    funext a
    match a with
    | ⟨0, _⟩ => exact Fin.ext (rr_rhs_0 _ _ _)
    | ⟨1, _⟩ => exact Fin.ext ((rr_rhs_1 _ _ _).trans (contrEquiv1_symm_val _ 300 rfl rfl k))
  rw [hl, hr]

/-! ### A square array with a tall one, over the square's columns: `(i, k) ↦ ∑ j, s i j * x j k` -/

theorem sx_lhs_0 (i : Fin 1024) (k : Fin 300) (q : dot_S1024x1024_S1024x300_S1024x300_1_0_0_1_n_n.contr.Idx) :
    (dot_S1024x1024_S1024x300_S1024x300_1_0_0_1_n_n.lhsIdx (ix2 i k) q 0).val = i.val := rfl

theorem sx_lhs_1 (i : Fin 1024) (k : Fin 300) (q : dot_S1024x1024_S1024x300_S1024x300_1_0_0_1_n_n.contr.Idx) :
    (dot_S1024x1024_S1024x300_S1024x300_1_0_0_1_n_n.lhsIdx (ix2 i k) q 1).val = (q ⟨0, Nat.one_pos⟩).val :=
  dot_S1024x1024_S1024x300_S1024x300_1_0_0_1_n_n.lhsIdx_val_of_single rfl (ix2 i k) q

theorem sx_rhs_0 (i : Fin 1024) (k : Fin 300) (q : dot_S1024x1024_S1024x300_S1024x300_1_0_0_1_n_n.contr.Idx) :
    (dot_S1024x1024_S1024x300_S1024x300_1_0_0_1_n_n.rhsIdx (ix2 i k) q 0).val = (q ⟨0, Nat.one_pos⟩).val :=
  dot_S1024x1024_S1024x300_S1024x300_1_0_0_1_n_n.rhsIdx_val_of_single rfl (ix2 i k) q

theorem sx_rhs_1 (i : Fin 1024) (k : Fin 300) (q : dot_S1024x1024_S1024x300_S1024x300_1_0_0_1_n_n.contr.Idx) :
    (dot_S1024x1024_S1024x300_S1024x300_1_0_0_1_n_n.rhsIdx (ix2 i k) q 1).val = k.val := rfl

/-- The product over the square array's columns into a zero accumulator, at `(i, k)`. -/
theorem sx_apply (s : FVec Ideal S1024x1024 .bf16) (x : FVec Ideal S1024x300 .bf16) (i : Fin 1024) (k : Fin 300) :
    matmul dot_S1024x1024_S1024x300_S1024x300_1_0_0_1_n_n none s x (constant (F := Ideal) S1024x300 .f32 0x00000000#32) (ix2 i k)
      = ∑ j : Fin 1024, s (ix2 i j) * x (ix2 j k) := by
  refine (Ideal.matmul_constant_zero_apply _ none s x (ix2 i k)).trans ?_
  refine (Equiv.sum_comp (contrEquiv1 dot_S1024x1024_S1024x300_S1024x300_1_0_0_1_n_n 1024 rfl rfl).symm _).symm.trans ?_
  refine Finset.sum_congr rfl fun j _ => ?_
  have hl : dot_S1024x1024_S1024x300_S1024x300_1_0_0_1_n_n.lhsIdx (ix2 i k)
      ((contrEquiv1 dot_S1024x1024_S1024x300_S1024x300_1_0_0_1_n_n 1024 rfl rfl).symm j) = ix2 i j := by
    funext a
    match a with
    | ⟨0, _⟩ => exact Fin.ext (sx_lhs_0 _ _ _)
    | ⟨1, _⟩ => exact Fin.ext ((sx_lhs_1 _ _ _).trans (contrEquiv1_symm_val _ 1024 rfl rfl j))
  have hr : dot_S1024x1024_S1024x300_S1024x300_1_0_0_1_n_n.rhsIdx (ix2 i k)
      ((contrEquiv1 dot_S1024x1024_S1024x300_S1024x300_1_0_0_1_n_n 1024 rfl rfl).symm j) = ix2 j k := by
    funext a
    match a with
    | ⟨0, _⟩ => exact Fin.ext ((sx_rhs_0 _ _ _).trans (contrEquiv1_symm_val _ 1024 rfl rfl j))
    | ⟨1, _⟩ => exact Fin.ext (sx_rhs_1 _ _ _)
  rw [hl, hr]

/-! ### A square array with a tall one, over the square's rows: `(i, k) ↦ ∑ j, s j i * x j k` -/

theorem stx_lhs_0 (i : Fin 1024) (k : Fin 300) (q : dot_S1024x1024_S1024x300_S1024x300_0_0_1_1_n_n.contr.Idx) :
    (dot_S1024x1024_S1024x300_S1024x300_0_0_1_1_n_n.lhsIdx (ix2 i k) q 0).val = (q ⟨0, Nat.one_pos⟩).val :=
  dot_S1024x1024_S1024x300_S1024x300_0_0_1_1_n_n.lhsIdx_val_of_single rfl (ix2 i k) q

theorem stx_lhs_1 (i : Fin 1024) (k : Fin 300) (q : dot_S1024x1024_S1024x300_S1024x300_0_0_1_1_n_n.contr.Idx) :
    (dot_S1024x1024_S1024x300_S1024x300_0_0_1_1_n_n.lhsIdx (ix2 i k) q 1).val = i.val := rfl

theorem stx_rhs_0 (i : Fin 1024) (k : Fin 300) (q : dot_S1024x1024_S1024x300_S1024x300_0_0_1_1_n_n.contr.Idx) :
    (dot_S1024x1024_S1024x300_S1024x300_0_0_1_1_n_n.rhsIdx (ix2 i k) q 0).val = (q ⟨0, Nat.one_pos⟩).val :=
  dot_S1024x1024_S1024x300_S1024x300_0_0_1_1_n_n.rhsIdx_val_of_single rfl (ix2 i k) q

theorem stx_rhs_1 (i : Fin 1024) (k : Fin 300) (q : dot_S1024x1024_S1024x300_S1024x300_0_0_1_1_n_n.contr.Idx) :
    (dot_S1024x1024_S1024x300_S1024x300_0_0_1_1_n_n.rhsIdx (ix2 i k) q 1).val = k.val := rfl

/-- The product over the square array's rows into a zero accumulator, at `(i, k)`. -/
theorem stx_apply (s : FVec Ideal S1024x1024 .bf16) (x : FVec Ideal S1024x300 .bf16) (i : Fin 1024) (k : Fin 300) :
    matmul dot_S1024x1024_S1024x300_S1024x300_0_0_1_1_n_n none s x (constant (F := Ideal) S1024x300 .f32 0x00000000#32) (ix2 i k)
      = ∑ j : Fin 1024, s (ix2 j i) * x (ix2 j k) := by
  refine (Ideal.matmul_constant_zero_apply _ none s x (ix2 i k)).trans ?_
  refine (Equiv.sum_comp (contrEquiv1 dot_S1024x1024_S1024x300_S1024x300_0_0_1_1_n_n 1024 rfl rfl).symm _).symm.trans ?_
  refine Finset.sum_congr rfl fun j _ => ?_
  have hl : dot_S1024x1024_S1024x300_S1024x300_0_0_1_1_n_n.lhsIdx (ix2 i k)
      ((contrEquiv1 dot_S1024x1024_S1024x300_S1024x300_0_0_1_1_n_n 1024 rfl rfl).symm j) = ix2 j i := by
    funext a
    match a with
    | ⟨0, _⟩ => exact Fin.ext ((stx_lhs_0 _ _ _).trans (contrEquiv1_symm_val _ 1024 rfl rfl j))
    | ⟨1, _⟩ => exact Fin.ext (stx_lhs_1 _ _ _)
  have hr : dot_S1024x1024_S1024x300_S1024x300_0_0_1_1_n_n.rhsIdx (ix2 i k)
      ((contrEquiv1 dot_S1024x1024_S1024x300_S1024x300_0_0_1_1_n_n 1024 rfl rfl).symm j) = ix2 j k := by
    funext a
    match a with
    | ⟨0, _⟩ => exact Fin.ext ((stx_rhs_0 _ _ _).trans (contrEquiv1_symm_val _ 1024 rfl rfl j))
    | ⟨1, _⟩ => exact Fin.ext (stx_rhs_1 _ _ _)
  rw [hl, hr]

/-! ## The distance matrix -/

/-- A square root at an index is the square root of the element. -/
theorem sqrt_apply {s : Shape} {φ : FTy} (v : FVec Ideal s φ) (i : s.Idx) : sqrt v i = Ideal.sqrt (v i) := rfl

/-- The square array the kernel forms from a pair before its last change of format or of shape: the square root of
    the sum of the two squared norms less twice the product of rows with rows, clipped below at zero. -/
def distVec (h d : FVec Ideal S1024x300 .f32) : FVec Ideal S1024x1024 .f32 :=
  sqrt (maximumf
    (subf
      (addf
        (broadcastTo S1024x1024
          (shapeCast S1024x1
            (multiReduction .add [1] S1024 (mulf h h) 0x00000000#32 reduces_S1024x300_S1024 (.inl rfl) rfl)
            shapeCasts_S1024_S1024x1)
          broadcasts_S1024x1_S1024x1024)
        (broadcastTo S1024x1024
          (transpose S1x1024 [1, 0]
            (shapeCast S1024x1
              (multiReduction .add [1] S1024 (mulf d d) 0x00000000#32 reduces_S1024x300_S1024 (.inl rfl) rfl)
              shapeCasts_S1024_S1024x1)
            transposes_S1024x1_p1_0_S1x1024)
          broadcasts_S1x1024_S1024x1024))
      (mulf (broadcast S1024x1024 (Scalar.ofBits .f32 0x40000000#32))
        (matmul dot_S1024x300_S1024x300_S1024x1024_1_1_0_0_n_n none
          (truncf .bf16 h bitsLt_bf16_f32) (truncf .bf16 d bitsLt_bf16_f32)
          (constant S1024x1024 .f32 0x00000000#32))))
    (broadcast S1024x1024 (Scalar.ofBits .f32 0x00000000#32)))

/-- The array the products of a trip read is that square array, its format changed. -/
theorem pay3_eq (h d : FVec Ideal S1024x300 .f32) :
    k0_pay3 (F := Ideal) h d = truncf .bf16 (distVec h d) bitsLt_bf16_f32 := rfl

/-- The stored block is that square array, a unit axis put in front. -/
theorem pay8_eq (h d : FVec Ideal S1024x300 .f32) :
    k0_pay8 (F := Ideal) h d = shapeCast S1x1024x1024 (distVec h d) shapeCasts_S1024x1024_S1x1024x1024 := rfl

/-- That square array at `(i, j)` is the distance of row `i` of the first from row `j` of the second. -/
theorem distVec_apply (h d : FVec Ideal S1024x300 .f32) (i j : Fin 1024) :
    distVec h d (ix2 i j) = dist (mat2 h) (mat2 d) i j := by
  unfold distVec
  simp only [sqrt_apply, maximumf_apply, subf_apply, addf_apply, mulf_apply, broadcast_apply]
  rw [broadcastTo_a1_ab_apply, shapeCast_a_a1_apply, sqsum_apply, broadcastTo_1b_ab_apply, transpose_ix2_apply,
    shapeCast_a_a1_apply, sqsum_apply, rr_apply]
  show Ideal.sqrt (max (sqnorm (mat2 h) i + sqnorm (mat2 d) j - two * inner (mat2 h) (mat2 d) i j) zero) = _
  rfl

/-- The array the products of a trip read, at `(i, j)`: the distance of row `i` from row `j`. -/
theorem pay3_apply (h d : FVec Ideal S1024x300 .f32) (i j : Fin 1024) :
    k0_pay3 (F := Ideal) h d (ix2 i j) = dist (mat2 h) (mat2 d) i j := by
  rw [pay3_eq, truncf_apply, distVec_apply]

/-- The two tall operands of a trip's products are the pair itself. -/
theorem pay4_apply (h : FVec Ideal S1024x300 .f32) (j : S1024x300.Idx) : k0_pay4 (F := Ideal) h j = h j := rfl
theorem pay5_apply (d : FVec Ideal S1024x300 .f32) (j : S1024x300.Idx) : k0_pay5 (F := Ideal) d j = d j := rfl

/-! ## The payloads -/

/-- The loaded block of one batch entry, its unit axis dropped, read by row and column. -/
theorem pay1_apply (v4 : Vec Ideal S1x1024x300 .f32) (i : Fin 1024) (k : Fin 300) :
    k0_pay1 (F := Ideal) v4 (ix2 i k) = v4 (ix3 0 i k) :=
  shapeCast_1ab_ab_apply v4 shapeCasts_S1x1024x300_S1024x300 i k

theorem pay2_apply (v6 : Vec Ideal S1x1024x300 .f32) (i : Fin 1024) (k : Fin 300) :
    k0_pay2 (F := Ideal) v6 (ix2 i k) = v6 (ix3 0 i k) :=
  shapeCast_1ab_ab_apply v6 shapeCasts_S1x1024x300_S1024x300 i k

/-- The heads a trip yields are the specification's update of the trip's pair. -/
theorem pay6_apply (v0 v2 : Vec Ideal S1024x300 .f32) (h d : FVec Ideal S1024x300 .f32) (i : Fin 1024) (k : Fin 300) :
    k0_pay6 (F := Ideal) v0 v2 h d (ix2 i k)
      = updH (mat2 v0) (mat2 v2) (dist (mat2 h) (mat2 d)) (mat2 h) (mat2 d) i k := by
  unfold k0_pay6
  simp only [select_apply, cmpf_apply, mulf_apply, addf_apply, broadcast_apply]
  rw [sx_apply, stx_apply]
  simp only [pay3_apply, pay4_apply, pay5_apply]
  rfl

/-- The dependents a trip yields are the specification's update of the trip's pair. -/
theorem pay7_apply (v1 v3 : Vec Ideal S1024x300 .f32) (h d : FVec Ideal S1024x300 .f32) (i : Fin 1024) (k : Fin 300) :
    k0_pay7 (F := Ideal) v1 v3 h d (ix2 i k)
      = updD (mat2 v1) (mat2 v3) (dist (mat2 h) (mat2 d)) (mat2 h) (mat2 d) i k := by
  unfold k0_pay7
  simp only [select_apply, cmpf_apply, mulf_apply, addf_apply, broadcast_apply]
  rw [stx_apply, sx_apply]
  simp only [pay3_apply, pay4_apply, pay5_apply]
  rfl

/-- The stored block is the distance matrix of the pair the loop ends with. -/
theorem pay8_apply (h d : FVec Ideal S1024x300 .f32) (i j : Fin 1024) :
    k0_pay8 (F := Ideal) h d (ix3 0 i j) = dist (mat2 h) (mat2 d) i j := by
  rw [pay8_eq]
  exact (shapeCast_ab_1ab_apply (distVec h d) shapeCasts_S1024x1024_S1x1024x1024 0 i j).trans (distVec_apply h d i j)

end Cert.KernelIdeal.Pay

end
-- ==== Proof.KerRun.lean ====
/-
  The kernel's run, read as values. At a grid point the body loads the point's two blocks and the four parameter
  arrays, runs the layer three times as a pure loop, and stores the distance matrix of the pair it ends with: the one
  piece its run finds is that stored value, the loop its fold over three trips. Read by row and column, a trip is
  the specification's layer on the pair, so the stored block is the specification's result of the blocks loaded.
  Grid point `t` loads batch entry `t` and writes batch entry `t` back, the sixteen points' blocks tile the result
  array, and so the array ends as the specification's result of each batch entry.
-/
import proofs.«114613_j33517924778635_1_alg».proof.Proof.Gen.KernelIdeal.Value
import proofs.«114613_j33517924778635_1_alg».proof.Proof.KerPay
import proofs.«114613_j33517924778635_1_alg».proof.Proof.Spec
import Idealize.ShloMosaic.Lib.Pipeline.Value
import Idealize.ShloMosaic.Lib.Tactic
import Idealize.ShloMosaic.Lib.ValueIdx

noncomputable section

namespace Cert.KernelIdeal.KerRun

open Cert.KernelIdeal Cert.KernelIdeal.Gen Cert.KernelIdeal.Pay Cert.Spec
open Idealize.ShloMosaic Idealize.ShloMosaic.TcCoe Idealize.SL.Sem Idealize.ShloMosaic.Tactic Idealize.ShloMosaic.ValueIdx
open Idealize.ShloMosaic.Pipeline (Dat)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## The body's one piece -/

/-- One trip of the layer loop on the pair it carries, over the parameter arrays loaded. -/
def trip (w1 w2 b1 b2 : Vec F S1024x300 .f32) (p : FVec F S1024x300 .f32 × FVec F S1024x300 .f32) :
    FVec F S1024x300 .f32 × FVec F S1024x300 .f32 :=
  (k0_pay6 w1 b1 p.1 p.2, k0_pay7 w2 b2 p.1 p.2)

/-- A pure loop whose trip does not read its counter is the trip iterated. -/
theorem fold_const {σ : Type} {n : Nat} (f : σ → σ) (init : σ) :
    Scf.fold (n := n) (fun _ acc => f acc) init = f^[n] init := by
  rw [Scf.fold_eq]
  have h : ∀ (l : List (Fin n)) (a : σ), l.foldl (fun acc _ => f acc) a = f^[l.length] a := by
    intro l
    induction l with
    | nil => intro a; rfl
    | cons k l ih => intro a; rw [List.foldl_cons, ih, List.length_cons, Function.iterate_succ_apply]
  rw [h, List.length_finRange]

/-- The layer loop takes three trips. -/
theorem trips_eq : k0_t1_loop.trips = 3 := by decide

/-- What the body leaves in the output's staging buffer: the distance matrix of the pair three trips leave from the
    two loaded blocks. -/
theorem out_A (c : Dev nD) (i : grid0.Coords) (arg1 : Memref sig .tc .vmem S1x1024x300 .f32) (harg1 : arg1.IsWhole) (arg2 : Memref sig .tc .vmem S1x1024x300 .f32) (harg2 : arg2.IsWhole) (arg3 : Memref sig .tc .vmem S1024x300 .f32) (harg3 : arg3.IsWhole) (arg4 : Memref sig .tc .vmem S1024x300 .f32) (harg4 : arg4.IsWhole) (arg5 : Memref sig .tc .vmem S1024x300 .f32) (harg5 : arg5.IsWhole) (arg6 : Memref sig .tc .vmem S1024x300 .f32) (harg6 : arg6.IsWhole) (arg7 : Memref sig .tc .vmem S1x1024x1024 .f32) (harg7 : arg7.IsWhole)
    (x0 : Vec F S1x1024x300 .f32) (x1 : Vec F S1x1024x300 .f32) (x2 : Vec F S1024x300 .f32) (x3 : Vec F S1024x300 .f32) (x4 : Vec F S1024x300 .f32) (x5 : Vec F S1024x300 .f32) :
    out0_A_6 c i arg1 harg1 arg2 harg2 arg3 harg3 arg4 harg4 arg5 harg5 arg6 harg6 arg7 harg7 x0 x1 x2 x3 x4 x5
      = k0_pay8 (trip x2 x3 x4 x5 (trip x2 x3 x4 x5 (trip x2 x3 x4 x5 (k0_pay1 x0, k0_pay2 x1)))).1
          (trip x2 x3 x4 x5 (trip x2 x3 x4 x5 (trip x2 x3 x4 x5 (k0_pay1 x0, k0_pay2 x1)))).2 := by
  unfold out0_A_6
  rw [View.read_writes_eq_canon _ _ _ (cover0_A_6 c i arg1 harg1 arg2 harg2 arg3 harg3 arg4 harg4 arg5 harg5 arg6 harg6 arg7 harg7 x0 x1 x2 x3 x4 x5)]
  unfold kernelRun0_A
  dsimp only
  sl_unfold_words
  rw [View.canon_unit_zero hz3]
  simp only [View.readAt_eq_ld, harg1.read_unread, harg2.read_unread, harg3.read_unread, harg4.read_unread,
    harg5.read_unread, harg6.read_unread, View.ld_unit_zero (S := S1x1024x300) hz3, View.ld_unit_zero (S := S1024x300) hz2]
  have e : Scf.fold (n := k0_t1_loop.trips)
      (fun _ (p : FVec F S1024x300 .f32 × FVec F S1024x300 .f32) => (k0_pay6 x2 x4 p.1 p.2, k0_pay7 x3 x5 p.1 p.2))
      (k0_pay1 x0, k0_pay2 x1)
      = trip x2 x3 x4 x5 (trip x2 x3 x4 x5 (trip x2 x3 x4 x5 (k0_pay1 x0, k0_pay2 x1))) := by
    show Scf.fold (n := k0_t1_loop.trips) (fun _ p => trip x2 x3 x4 x5 p) (k0_pay1 x0, k0_pay2 x1) = _
    rw [fold_const, trips_eq]
    rfl
  rw [e]

/-! ## The stored block at an index, on the extended reals -/

/-- A trip, read by row and column, is the specification's layer. -/
theorem trip_mat (w1 w2 b1 b2 : Vec Ideal S1024x300 .f32) (p : FVec Ideal S1024x300 .f32 × FVec Ideal S1024x300 .f32) :
    (mat2 (trip w1 w2 b1 b2 p).1, mat2 (trip w1 w2 b1 b2 p).2)
      = layer (mat2 w1) (mat2 b1) (mat2 w2) (mat2 b2) (mat2 p.1, mat2 p.2) :=
  Prod.ext (funext fun i => funext fun k => pay6_apply w1 b1 p.1 p.2 i k)
    (funext fun i => funext fun k => pay7_apply w2 b2 p.1 p.2 i k)

/-- The staging block the body leaves, at row `p` and column `q` of its one entry: the specification's result of
    the two blocks loaded. -/
theorem out_A_apply (c : Dev nD) (i : grid0.Coords) (arg1 : Memref sig .tc .vmem S1x1024x300 .f32) (harg1 : arg1.IsWhole) (arg2 : Memref sig .tc .vmem S1x1024x300 .f32) (harg2 : arg2.IsWhole) (arg3 : Memref sig .tc .vmem S1024x300 .f32) (harg3 : arg3.IsWhole) (arg4 : Memref sig .tc .vmem S1024x300 .f32) (harg4 : arg4.IsWhole) (arg5 : Memref sig .tc .vmem S1024x300 .f32) (harg5 : arg5.IsWhole) (arg6 : Memref sig .tc .vmem S1024x300 .f32) (harg6 : arg6.IsWhole) (arg7 : Memref sig .tc .vmem S1x1024x1024 .f32) (harg7 : arg7.IsWhole)
    (x0 : Vec Ideal S1x1024x300 .f32) (x1 : Vec Ideal S1x1024x300 .f32) (x2 : Vec Ideal S1024x300 .f32) (x3 : Vec Ideal S1024x300 .f32) (x4 : Vec Ideal S1024x300 .f32) (x5 : Vec Ideal S1024x300 .f32)
    (p q : Fin 1024) :
    out0_A_6 (F := Ideal) c i arg1 harg1 arg2 harg2 arg3 harg3 arg4 harg4 arg5 harg5 arg6 harg6 arg7 harg7 x0 x1 x2 x3 x4 x5 (ix3 0 p q)
      = out (mat2 x2) (mat2 x3) (mat2 x4) (mat2 x5) (blk3 x0) (blk3 x1) p q := by
  rw [out_A, pay8_apply]
  have h0 : (mat2 (k0_pay1 (F := Ideal) x0), mat2 (k0_pay2 (F := Ideal) x1)) = (blk3 x0, blk3 x1) :=
    Prod.ext (funext fun i => funext fun k => pay1_apply x0 i k) (funext fun i => funext fun k => pay2_apply x1 i k)
  have h1 := trip_mat x2 x3 x4 x5 (k0_pay1 x0, k0_pay2 x1)
  have h2 := trip_mat x2 x3 x4 x5 (trip x2 x3 x4 x5 (k0_pay1 x0, k0_pay2 x1))
  have h3 := trip_mat x2 x3 x4 x5 (trip x2 x3 x4 x5 (trip x2 x3 x4 x5 (k0_pay1 x0, k0_pay2 x1)))
  rw [h2, h1, h0] at h3
  unfold out
  rw [← h3]

/-! ## Grid point `t` works on batch entry `t` -/

section Array

variable (m : (ℓ : Loc nD τ sig) → Buf (Elt Ideal) ℓ) (ρ : Dev nD → PrngReg)

/-- The printed index maps over the sixteen points: the two batched inputs and the output move with the point along
    the batch axis; the four parameter arrays are one block, fetched whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- A grid point as a batch entry. -/
def entry (t : Fin cfg0.N) : Fin 16 := ⟨t.val, Nat.lt_of_lt_of_eq t.isLt N_0⟩

/-- The heads' block at point `t` is batch entry `t` of the heads. -/
theorem blk_h (c : Dev nD) (t : Fin cfg0.N) :
    blk3 (iblk m c 0 t : Vec Ideal S1x1024x300 .f32) = slice3 (m ((c : Thread nD τ).loc main_arg0)) (entry t) := by
  obtain ⟨e0, e1, e2, -⟩ := idx_facts t
  funext p q
  show (iblk m c 0 t : Vec Ideal S1x1024x300 .f32) (ix3 0 p q) = _
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * (0 : Fin 1).val = t.val; rw [e0]; simp
  | ⟨1, _⟩ => show win0_0.index t (1 : Fin 3) * 1024 + 1 * p.val = p.val; rw [e1]; omega
  | ⟨2, _⟩ => show win0_0.index t (2 : Fin 3) * 300 + 1 * q.val = q.val; rw [e2]; omega

/-- The dependents' block at point `t` is batch entry `t` of the dependents. -/
theorem blk_d (c : Dev nD) (t : Fin cfg0.N) :
    blk3 (iblk m c 1 t : Vec Ideal S1x1024x300 .f32) = slice3 (m ((c : Thread nD τ).loc main_arg1)) (entry t) := by
  obtain ⟨-, -, -, e0, e1, e2, -⟩ := idx_facts t
  funext p q
  show (iblk m c 1 t : Vec Ideal S1x1024x300 .f32) (ix3 0 p q) = _
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * (0 : Fin 1).val = t.val; rw [e0]; simp
  | ⟨1, _⟩ => show win0_1.index t (1 : Fin 3) * 1024 + 1 * p.val = p.val; rw [e1]; omega
  | ⟨2, _⟩ => show win0_1.index t (2 : Fin 3) * 300 + 1 * q.val = q.val; rw [e2]; omega

/-- Parameter window 2's block at every point is the whole array. -/
theorem blk_w2 (c : Dev nD) (t : Fin cfg0.N) :
    mat2 (iblk m c 2 t : Vec Ideal S1024x300 .f32) = mat2 (m ((c : Thread nD τ).loc main_arg2)) := by
  obtain ⟨-, -, -, -, -, -, e0, e1, -⟩ := idx_facts t
  funext p q
  show (iblk m c 2 t : Vec Ideal S1024x300 .f32) (ix2 p q) = _
  unfold iblk
  rw [View.read_apply]
  show V m c main_arg2 _ = m (c.tc.loc main_arg2) _
  unfold V
  congr 1
  funext a
  apply Fin.ext
  match a with
  | ⟨0, _⟩ => show win0_2.index t (0 : Fin 2) * 1024 + 1 * p.val = p.val; rw [e0]; omega
  | ⟨1, _⟩ => show win0_2.index t (1 : Fin 2) * 300 + 1 * q.val = q.val; rw [e1]; omega

/-- Parameter window 3's block at every point is the whole array. -/
theorem blk_w3 (c : Dev nD) (t : Fin cfg0.N) :
    mat2 (iblk m c 3 t : Vec Ideal S1024x300 .f32) = mat2 (m ((c : Thread nD τ).loc main_arg3)) := by
  obtain ⟨-, -, -, -, -, -, -, -, e0, e1, -⟩ := idx_facts t
  funext p q
  show (iblk m c 3 t : Vec Ideal S1024x300 .f32) (ix2 p q) = _
  unfold iblk
  rw [View.read_apply]
  show V m c main_arg3 _ = m (c.tc.loc main_arg3) _
  unfold V
  congr 1
  funext a
  apply Fin.ext
  match a with
  | ⟨0, _⟩ => show win0_3.index t (0 : Fin 2) * 1024 + 1 * p.val = p.val; rw [e0]; omega
  | ⟨1, _⟩ => show win0_3.index t (1 : Fin 2) * 300 + 1 * q.val = q.val; rw [e1]; omega

/-- Parameter window 4's block at every point is the whole array. -/
theorem blk_w4 (c : Dev nD) (t : Fin cfg0.N) :
    mat2 (iblk m c 4 t : Vec Ideal S1024x300 .f32) = mat2 (m ((c : Thread nD τ).loc main_arg4)) := by
  obtain ⟨-, -, -, -, -, -, -, -, -, -, e0, e1, -⟩ := idx_facts t
  funext p q
  show (iblk m c 4 t : Vec Ideal S1024x300 .f32) (ix2 p q) = _
  unfold iblk
  rw [View.read_apply]
  show V m c main_arg4 _ = m (c.tc.loc main_arg4) _
  unfold V
  congr 1
  funext a
  apply Fin.ext
  match a with
  | ⟨0, _⟩ => show win0_4.index t (0 : Fin 2) * 1024 + 1 * p.val = p.val; rw [e0]; omega
  | ⟨1, _⟩ => show win0_4.index t (1 : Fin 2) * 300 + 1 * q.val = q.val; rw [e1]; omega

/-- Parameter window 5's block at every point is the whole array. -/
theorem blk_w5 (c : Dev nD) (t : Fin cfg0.N) :
    mat2 (iblk m c 5 t : Vec Ideal S1024x300 .f32) = mat2 (m ((c : Thread nD τ).loc main_arg5)) := by
  obtain ⟨-, -, -, -, -, -, -, -, -, -, -, -, e0, e1, -⟩ := idx_facts t
  funext p q
  show (iblk m c 5 t : Vec Ideal S1024x300 .f32) (ix2 p q) = _
  unfold iblk
  rw [View.read_apply]
  show V m c main_arg5 _ = m (c.tc.loc main_arg5) _
  unfold V
  congr 1
  funext a
  apply Fin.ext
  match a with
  | ⟨0, _⟩ => show win0_5.index t (0 : Fin 2) * 1024 + 1 * p.val = p.val; rw [e0]; omega
  | ⟨1, _⟩ => show win0_5.index t (1 : Fin 2) * 300 + 1 * q.val = q.val; rw [e1]; omega

/-! ## The result array -/

/-- The result array the kernel leaves: at batch entry `b`, row `p`, column `q`, the specification's result of
    entry `b` of the two batched arguments and the four parameter arrays. -/
def kerOut (c : Dev nD) : Buf (Elt Ideal) ((c : Thread nD τ).loc main_v0) := fun idx =>
  out (mat2 (m ((c : Thread nD τ).loc main_arg2))) (mat2 (m ((c : Thread nD τ).loc main_arg3))) (mat2 (m ((c : Thread nD τ).loc main_arg4))) (mat2 (m ((c : Thread nD τ).loc main_arg5)))
    (slice3 (m ((c : Thread nD τ).loc main_arg0)) (idx 0)) (slice3 (m ((c : Thread nD τ).loc main_arg1)) (idx 0)) (idx 1) (idx 2)

theorem kerOut_apply (c : Dev nD) (b : Fin 16) (p q : Fin 1024) :
    kerOut m c (ix3 b p q)
      = out (mat2 (m ((c : Thread nD τ).loc main_arg2))) (mat2 (m ((c : Thread nD τ).loc main_arg3))) (mat2 (m ((c : Thread nD τ).loc main_arg4))) (mat2 (m ((c : Thread nD τ).loc main_arg5)))
          (slice3 (m ((c : Thread nD τ).loc main_arg0)) b) (slice3 (m ((c : Thread nD τ).loc main_arg1)) b) p q := rfl

/-- Where the output's block at point `t` puts row `p`, column `q` of its one entry: batch entry `t`. -/
theorem emb_out (t : Fin cfg0.N) (p q : Fin 1024) :
    ((cfg0.win 6).blk t).view.emb (ix3 0 p q : S1x1024x1024.Idx) = ix3 (entry t) p q := by
  obtain ⟨-, -, -, -, -, -, -, -, -, -, -, -, -, -, e0, e1, e2⟩ := idx_facts t
  funext a
  apply Fin.ext
  match a with
  | ⟨0, _⟩ => show win0_6.index t (0 : Fin 3) * 1 + 1 * (0 : Fin 1).val = t.val; rw [e0]; simp
  | ⟨1, _⟩ => show win0_6.index t (1 : Fin 3) * 1024 + 1 * p.val = p.val; rw [e1]; omega
  | ⟨2, _⟩ => show win0_6.index t (2 : Fin 3) * 1024 + 1 * q.val = q.val; rw [e2]; omega

/-- What the body leaves at point `t`, at an index of the block, is the result array's value where the block puts it. -/
theorem stored_apply (c : Dev nD) (t : Fin cfg0.N) (j : S1x1024x1024.Idx) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
        (iblk m c 0 t) (iblk m c 1 t) (iblk m c 2 t) (iblk m c 3 t) (iblk m c 4 t) (iblk m c 5 t) j
      = kerOut m c (((cfg0.win 6).blk t).view.emb j) := by
  obtain ⟨p, q, rfl⟩ : ∃ p q : Fin 1024, j = ix3 0 p q :=
    ⟨j 1, j 2, by
      have hlt : (j 0).val < 1 := (j 0).isLt
      funext a
      apply Fin.ext
      match a with
      | ⟨0, _⟩ => show (j 0).val = 0; omega
      | ⟨1, _⟩ => rfl
      | ⟨2, _⟩ => rfl⟩
  rw [out_A_apply, emb_out, kerOut_apply, blk_h, blk_d, blk_w2, blk_w3, blk_w4, blk_w5]

/-- What point `t` writes back is its block of the result array. -/
theorem flushed_eq (c : Dev nD) (t : Fin cfg0.N) :
    (dats m 0 c).flushed 6 t = ((cfg0.win 6).blk t).view.read (Elt Ideal) (kerOut m c) := by
  rw [Cert.KernelIdeal.Value.flushed6_A]
  funext j
  exact stored_apply m c t j

/-- An index of the result array is in point `t`'s block iff each coordinate is in the block's range on its axis. -/
theorem mem_blk (t : Fin cfg0.N) (i : S16x1024x1024.Idx) :
    i ∈ ((cfg0.win 6).blk t).view.set ↔ ∀ a : Fin 3, win0_6.index t a * S1x1024x1024.size a ≤ (i a).val
      ∧ (i a).val < win0_6.index t a * S1x1024x1024.size a + S1x1024x1024.size a := by
  show i ∈ ((View.whole main_v0).slice (win0_6.rect t)).set ↔ _
  rw [View.set_slice_whole, Rect.mem_set_unit]
  exact Iff.rfl

/-- Every index of the result array is in the block of the point of its batch entry. -/
theorem cover (i : S16x1024x1024.Idx) :
    ∃ t : Fin cfg0.N, (cfg0.win 6).flush t = true ∧ i ∈ ((cfg0.win 6).blk t).view.set := by
  have hi0 : (i 0).val < 16 := (i 0).isLt
  have hi1 : (i 1).val < 1024 := (i 1).isLt
  have hi2 : (i 2).val < 1024 := (i 2).isLt
  let t : Fin cfg0.N := ⟨(i 0).val, by rw [show cfg0.N = 16 from N_0]; exact hi0⟩
  obtain ⟨-, -, -, -, -, -, -, -, -, -, -, -, -, -, e0, e1, e2⟩ := idx_facts t
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; rw [e0]; show (i 0).val * 1 ≤ (i 0).val ∧ (i 0).val < (i 0).val * 1 + 1; omega
  | ⟨1, _⟩ => show win0_6.index t (1 : Fin 3) * 1024 ≤ (i 1).val ∧ (i 1).val < win0_6.index t (1 : Fin 3) * 1024 + 1024; rw [e1]; omega
  | ⟨2, _⟩ => show win0_6.index t (2 : Fin 3) * 1024 ≤ (i 2).val ∧ (i 2).val < win0_6.index t (2 : Fin 3) * 1024 + 1024; rw [e2]; omega

/-- The result array after the run. -/
theorem final (c : Dev nD) : (dats m 0 c).arrAt 6 cfg0.N = kerOut m c :=
  (dats m 0 c).arrAt_eq_of_cover 6 (kerOut m c) (fun t _ => flushed_eq m c t) cover

/-- The kernel's run, read: the result array at `kerOut`, the arguments unchanged. -/
theorem run : θ_run defs (onTc (τ := τ) (main (F := Ideal))) ⟨m, fun _ => 0, ρ⟩ fun r => ∀ c : Dev nD,
      r.2.mem ((c : Thread nD τ).loc main_v0) = kerOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Array

end Cert.KernelIdeal.KerRun

end
-- ==== Proof.RefOps.lean ====
/- 191 host operations in program order, a called function's operations in its call's place, cut into seven lists
   — a batch of distance matrices, then three times a layer and the distances of its result —, with, per list, the
   buffers it writes and the fact that its operations touch only buffers of the device. -/
import proofs.«114613_j33517924778635_1_alg».proof.ReferenceIdeal
import proofs.«114613_j33517924778635_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch D0: 20 operations. -/
abbrev opsD0 : List (HloOp τ sig (Elt F)) :=
  [ binary main_arg0 main_arg0 main_v0 (mulf : (⟨S16x1024x300, .f32⟩ : BufTy).Contents (Elt F) → (⟨S16x1024x300, .f32⟩ : BufTy).Contents (Elt F) → (⟨S16x1024x300, .f32⟩ : BufTy).Contents (Elt F)),
    nullary main_cst (constant S_ .f32 0x00000000#32),
    binary main_v0 main_cst main_v1 ((fun x v => Host.reduceAdd x v reducesTo_S16x1024x300_S16x1024_d2 h_S_) : (⟨S16x1024x300, .f32⟩ : BufTy).Contents (Elt F) → (⟨S_, .f32⟩ : BufTy).Contents (Elt F) → (⟨S16x1024, .f32⟩ : BufTy).Contents (Elt F)),
    binary main_arg1 main_arg1 main_v2 (mulf : (⟨S16x1024x300, .f32⟩ : BufTy).Contents (Elt F) → (⟨S16x1024x300, .f32⟩ : BufTy).Contents (Elt F) → (⟨S16x1024x300, .f32⟩ : BufTy).Contents (Elt F)),
    nullary main_cst_0 (constant S_ .f32 0x00000000#32),
    binary main_v2 main_cst_0 main_v3 ((fun x v => Host.reduceAdd x v reducesTo_S16x1024x300_S16x1024_d2 h_S_) : (⟨S16x1024x300, .f32⟩ : BufTy).Contents (Elt F) → (⟨S_, .f32⟩ : BufTy).Contents (Elt F) → (⟨S16x1024, .f32⟩ : BufTy).Contents (Elt F)),
    binary main_arg0 main_arg1 main_v4 ((fun l r => Host.dotGeneral dot_S16x1024x300_S16x1024x300_S16x1024x1024_2_2_1_1_0_0 none l r) : (⟨S16x1024x300, .f32⟩ : BufTy).Contents (Elt F) → (⟨S16x1024x300, .f32⟩ : BufTy).Contents (Elt F) → (⟨S16x1024x1024, .f32⟩ : BufTy).Contents (Elt F)),
    unary main_v1 main_v5 (broadcastInDim S16x1024x1 ![0, 1] bcast_S16x1024_S16x1024x1_0_1 : (⟨S16x1024, .f32⟩ : BufTy).Contents (Elt F) → (⟨S16x1024x1, .f32⟩ : BufTy).Contents (Elt F)),
    unary main_v3 main_v6 (broadcastInDim S16x1x1024 ![0, 2] bcast_S16x1024_S16x1x1024_0_2 : (⟨S16x1024, .f32⟩ : BufTy).Contents (Elt F) → (⟨S16x1x1024, .f32⟩ : BufTy).Contents (Elt F)),
    unary main_v5 main_v7 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    unary main_v6 main_v8 (broadcastInDim S16x1024x1024 ![0, 1, 2] bcast_S16x1x1024_S16x1024x1024_0_1_2 : (⟨S16x1x1024, .f32⟩ : BufTy).Contents (Elt F) → (⟨S16x1024x1024, .f32⟩ : BufTy).Contents (Elt F)),
    binary main_v7 main_v8 main_v9 (addf : (⟨S16x1024x1024, .f32⟩ : BufTy).Contents (Elt F) → (⟨S16x1024x1024, .f32⟩ : BufTy).Contents (Elt F) → (⟨S16x1024x1024, .f32⟩ : BufTy).Contents (Elt F)),
    nullary main_cst_1 (constant S_ .f32 0x40000000#32),
    unary main_cst_1 main_v10 (broadcastInDim S16x1024x1024 ![] bcast_S_S16x1024x1024 : (⟨S_, .f32⟩ : BufTy).Contents (Elt F) → (⟨S16x1024x1024, .f32⟩ : BufTy).Contents (Elt F)),
    binary main_v10 main_v4 main_v11 (mulf : (⟨S16x1024x1024, .f32⟩ : BufTy).Contents (Elt F) → (⟨S16x1024x1024, .f32⟩ : BufTy).Contents (Elt F) → (⟨S16x1024x1024, .f32⟩ : BufTy).Contents (Elt F)),
    binary main_v9 main_v11 main_v12 (subf : (⟨S16x1024x1024, .f32⟩ : BufTy).Contents (Elt F) → (⟨S16x1024x1024, .f32⟩ : BufTy).Contents (Elt F) → (⟨S16x1024x1024, .f32⟩ : BufTy).Contents (Elt F)),
    nullary main_cst_2 (constant S_ .f32 0x00000000#32),
    unary main_cst_2 main_v13 (broadcastInDim S16x1024x1024 ![] bcast_S_S16x1024x1024 : (⟨S_, .f32⟩ : BufTy).Contents (Elt F) → (⟨S16x1024x1024, .f32⟩ : BufTy).Contents (Elt F)),
    binary main_v12 main_v13 main_v14 (maximumf : (⟨S16x1024x1024, .f32⟩ : BufTy).Contents (Elt F) → (⟨S16x1024x1024, .f32⟩ : BufTy).Contents (Elt F) → (⟨S16x1024x1024, .f32⟩ : BufTy).Contents (Elt F)),
    unary main_v14 main_v15 (Host.sqrt : (⟨S16x1024x1024, .f32⟩ : BufTy).Contents (Elt F) → (⟨S16x1024x1024, .f32⟩ : BufTy).Contents (Elt F)) ]
/-- The buffers stretch D0 writes. -/
abbrev WD0 : List (Ref sig .tc) := [main_v0, main_cst, main_v1, main_v2, main_cst_0, main_v3, main_v4, main_v5, main_v6, main_v7, main_v8, main_v9, main_cst_1, main_v10, main_v11, main_v12, main_cst_2, main_v13, main_v14, main_v15]
set_option maxRecDepth 8192 in
theorem opsD0_sub : (opsD0 : List (HloOp τ sig (Elt F))).Forall fun op => op.bufs ⊆ tcRefs τ sig :=
  ⟨binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub ..⟩

/-- Stretch L1: 37 operations. -/
abbrev opsL1 : List (HloOp τ sig (Elt F)) :=
  [ unary main_v15 main_v16 ((transpose S16x1024x1024 [0, 2, 1] · transposes_S16x1024x1024_S16x1024x1024_0_2_1) : (⟨S16x1024x1024, .f32⟩ : BufTy).Contents (Elt F) → (⟨S16x1024x1024, .f32⟩ : BufTy).Contents (Elt F)),
    binary main_v15 main_arg0 main_v17 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v16 main_arg1 main_v18 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v17 main_v18 main_v19 (addf : (⟨S16x1024x300, .f32⟩ : BufTy).Contents (Elt F) → (⟨S16x1024x300, .f32⟩ : BufTy).Contents (Elt F) → (⟨S16x1024x300, .f32⟩ : BufTy).Contents (Elt F)),
    binary main_v16 main_arg0 main_v20 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v15 main_arg1 main_v21 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v20 main_v21 main_v22 (addf : (⟨S16x1024x300, .f32⟩ : BufTy).Contents (Elt F) → (⟨S16x1024x300, .f32⟩ : BufTy).Contents (Elt F) → (⟨S16x1024x300, .f32⟩ : BufTy).Contents (Elt F)),
    unary main_arg2 main_v23 (broadcastInDim S1x1024x300 ![1, 2] bcast_S1024x300_S1x1024x300_1_2 : (⟨S1024x300, .f32⟩ : BufTy).Contents (Elt F) → (⟨S1x1024x300, .f32⟩ : BufTy).Contents (Elt F)),
    unary main_v23 main_v24 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v24 main_v19 main_v25 (mulf : (⟨S16x1024x300, .f32⟩ : BufTy).Contents (Elt F) → (⟨S16x1024x300, .f32⟩ : BufTy).Contents (Elt F) → (⟨S16x1024x300, .f32⟩ : BufTy).Contents (Elt F)),
    unary main_arg4 main_v26 (broadcastInDim S1x1024x300 ![1, 2] bcast_S1024x300_S1x1024x300_1_2 : (⟨S1024x300, .f32⟩ : BufTy).Contents (Elt F) → (⟨S1x1024x300, .f32⟩ : BufTy).Contents (Elt F)),
    unary main_v26 main_v27 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v27 main_arg0 main_v28 (mulf : (⟨S16x1024x300, .f32⟩ : BufTy).Contents (Elt F) → (⟨S16x1024x300, .f32⟩ : BufTy).Contents (Elt F) → (⟨S16x1024x300, .f32⟩ : BufTy).Contents (Elt F)),
    binary main_v25 main_v28 main_v29 (addf : (⟨S16x1024x300, .f32⟩ : BufTy).Contents (Elt F) → (⟨S16x1024x300, .f32⟩ : BufTy).Contents (Elt F) → (⟨S16x1024x300, .f32⟩ : BufTy).Contents (Elt F)),
    nullary main_cst_3 (constant S_ .f32 0x3C23D70A#32),
    TRef.nullary (TRef.of (T := ⟨S_, .f32⟩) main_call0_cst) (constant S_ .f32 0x00000000#32),
    TRef.unary (TRef.of (T := ⟨S_, .f32⟩) main_call0_cst) (TRef.of (T := ⟨S16x1024x300, .f32⟩) main_call0_v0) (broadcastInDim S16x1024x300 ![] bcast_S_S16x1024x300),
    TRef.binary (TRef.of (T := ⟨S16x1024x300, .f32⟩) main_v29) (TRef.of (T := ⟨S16x1024x300, .f32⟩) main_call0_v0) (TRef.of (T := ⟨S16x1024x300, .i1⟩) main_call0_v1) (cmpf .oge),
    TRef.unary (TRef.of (T := ⟨S_, .f32⟩) main_cst_3) (TRef.of (T := ⟨S_, .f32⟩) main_call0_v2) id,
    TRef.unary (TRef.of (T := ⟨S_, .f32⟩) main_call0_v2) (TRef.of (T := ⟨S16x1024x300, .f32⟩) main_call0_v3) (broadcastInDim S16x1024x300 ![] bcast_S_S16x1024x300),
    TRef.binary (TRef.of (T := ⟨S16x1024x300, .f32⟩) main_call0_v3) (TRef.of (T := ⟨S16x1024x300, .f32⟩) main_v29) (TRef.of (T := ⟨S16x1024x300, .f32⟩) main_call0_v4) mulf,
    TRef.ternary (TRef.of (T := ⟨S16x1024x300, .i1⟩) main_call0_v1) (TRef.of (T := ⟨S16x1024x300, .f32⟩) main_v29) (TRef.of (T := ⟨S16x1024x300, .f32⟩) main_call0_v4) (TRef.of (T := ⟨S16x1024x300, .f32⟩) main_v30) select,
    unary main_arg3 main_v31 (broadcastInDim S1x1024x300 ![1, 2] bcast_S1024x300_S1x1024x300_1_2 : (⟨S1024x300, .f32⟩ : BufTy).Contents (Elt F) → (⟨S1x1024x300, .f32⟩ : BufTy).Contents (Elt F)),
    unary main_v31 main_v32 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v32 main_v22 main_v33 (mulf : (⟨S16x1024x300, .f32⟩ : BufTy).Contents (Elt F) → (⟨S16x1024x300, .f32⟩ : BufTy).Contents (Elt F) → (⟨S16x1024x300, .f32⟩ : BufTy).Contents (Elt F)),
    unary main_arg5 main_v34 (broadcastInDim S1x1024x300 ![1, 2] bcast_S1024x300_S1x1024x300_1_2 : (⟨S1024x300, .f32⟩ : BufTy).Contents (Elt F) → (⟨S1x1024x300, .f32⟩ : BufTy).Contents (Elt F)),
    unary main_v34 main_v35 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v35 main_arg1 main_v36 (mulf : (⟨S16x1024x300, .f32⟩ : BufTy).Contents (Elt F) → (⟨S16x1024x300, .f32⟩ : BufTy).Contents (Elt F) → (⟨S16x1024x300, .f32⟩ : BufTy).Contents (Elt F)),
    binary main_v33 main_v36 main_v37 (addf : (⟨S16x1024x300, .f32⟩ : BufTy).Contents (Elt F) → (⟨S16x1024x300, .f32⟩ : BufTy).Contents (Elt F) → (⟨S16x1024x300, .f32⟩ : BufTy).Contents (Elt F)),
    nullary main_cst_4 (constant S_ .f32 0x3C23D70A#32),
    TRef.nullary (TRef.of (T := ⟨S_, .f32⟩) main_call1_cst) (constant S_ .f32 0x00000000#32),
    TRef.unary (TRef.of (T := ⟨S_, .f32⟩) main_call1_cst) (TRef.of (T := ⟨S16x1024x300, .f32⟩) main_call1_v0) (broadcastInDim S16x1024x300 ![] bcast_S_S16x1024x300),
    TRef.binary (TRef.of (T := ⟨S16x1024x300, .f32⟩) main_v37) (TRef.of (T := ⟨S16x1024x300, .f32⟩) main_call1_v0) (TRef.of (T := ⟨S16x1024x300, .i1⟩) main_call1_v1) (cmpf .oge),
    TRef.unary (TRef.of (T := ⟨S_, .f32⟩) main_cst_4) (TRef.of (T := ⟨S_, .f32⟩) main_call1_v2) id,
    TRef.unary (TRef.of (T := ⟨S_, .f32⟩) main_call1_v2) (TRef.of (T := ⟨S16x1024x300, .f32⟩) main_call1_v3) (broadcastInDim S16x1024x300 ![] bcast_S_S16x1024x300),
    TRef.binary (TRef.of (T := ⟨S16x1024x300, .f32⟩) main_call1_v3) (TRef.of (T := ⟨S16x1024x300, .f32⟩) main_v37) (TRef.of (T := ⟨S16x1024x300, .f32⟩) main_call1_v4) mulf,
    TRef.ternary (TRef.of (T := ⟨S16x1024x300, .i1⟩) main_call1_v1) (TRef.of (T := ⟨S16x1024x300, .f32⟩) main_v37) (TRef.of (T := ⟨S16x1024x300, .f32⟩) main_call1_v4) (TRef.of (T := ⟨S16x1024x300, .f32⟩) main_v38) select ]
/-- The buffers stretch L1 writes. -/
abbrev WL1 : List (Ref sig .tc) := [main_v16, main_v17, main_v18, main_v19, main_v20, main_v21, main_v22, main_v23, main_v24, main_v25, main_v26, main_v27, main_v28, main_v29, main_cst_3, main_call0_cst, main_call0_v0, main_call0_v1, main_call0_v2, main_call0_v3, main_call0_v4, main_v30, main_v31, main_v32, main_v33, main_v34, main_v35, main_v36, main_v37, main_cst_4, main_call1_cst, main_call1_v0, main_call1_v1, main_call1_v2, main_call1_v3, main_call1_v4, main_v38]
set_option maxRecDepth 8192 in
theorem opsL1_sub : (opsL1 : List (HloOp τ sig (Elt F))).Forall fun op => op.bufs ⊆ tcRefs τ sig :=
  ⟨unary_bufs_sub .., binary_bufs_sub .., binary_bufs_sub .., binary_bufs_sub .., binary_bufs_sub .., binary_bufs_sub .., binary_bufs_sub .., unary_bufs_sub .., unary_bufs_sub .., binary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., unary_bufs_sub .., binary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

/-- Stretch D1: 20 operations. -/
abbrev opsD1 : List (HloOp τ sig (Elt F)) :=
  [ binary main_v30 main_v30 main_v39 (mulf : (⟨S16x1024x300, .f32⟩ : BufTy).Contents (Elt F) → (⟨S16x1024x300, .f32⟩ : BufTy).Contents (Elt F) → (⟨S16x1024x300, .f32⟩ : BufTy).Contents (Elt F)),
    nullary main_cst_5 (constant S_ .f32 0x00000000#32),
    binary main_v39 main_cst_5 main_v40 ((fun x v => Host.reduceAdd x v reducesTo_S16x1024x300_S16x1024_d2 h_S_) : (⟨S16x1024x300, .f32⟩ : BufTy).Contents (Elt F) → (⟨S_, .f32⟩ : BufTy).Contents (Elt F) → (⟨S16x1024, .f32⟩ : BufTy).Contents (Elt F)),
    binary main_v38 main_v38 main_v41 (mulf : (⟨S16x1024x300, .f32⟩ : BufTy).Contents (Elt F) → (⟨S16x1024x300, .f32⟩ : BufTy).Contents (Elt F) → (⟨S16x1024x300, .f32⟩ : BufTy).Contents (Elt F)),
    nullary main_cst_6 (constant S_ .f32 0x00000000#32),
    binary main_v41 main_cst_6 main_v42 ((fun x v => Host.reduceAdd x v reducesTo_S16x1024x300_S16x1024_d2 h_S_) : (⟨S16x1024x300, .f32⟩ : BufTy).Contents (Elt F) → (⟨S_, .f32⟩ : BufTy).Contents (Elt F) → (⟨S16x1024, .f32⟩ : BufTy).Contents (Elt F)),
    binary main_v30 main_v38 main_v43 ((fun l r => Host.dotGeneral dot_S16x1024x300_S16x1024x300_S16x1024x1024_2_2_1_1_0_0 none l r) : (⟨S16x1024x300, .f32⟩ : BufTy).Contents (Elt F) → (⟨S16x1024x300, .f32⟩ : BufTy).Contents (Elt F) → (⟨S16x1024x1024, .f32⟩ : BufTy).Contents (Elt F)),
    unary main_v40 main_v44 (broadcastInDim S16x1024x1 ![0, 1] bcast_S16x1024_S16x1024x1_0_1 : (⟨S16x1024, .f32⟩ : BufTy).Contents (Elt F) → (⟨S16x1024x1, .f32⟩ : BufTy).Contents (Elt F)),
    unary main_v42 main_v45 (broadcastInDim S16x1x1024 ![0, 2] bcast_S16x1024_S16x1x1024_0_2 : (⟨S16x1024, .f32⟩ : BufTy).Contents (Elt F) → (⟨S16x1x1024, .f32⟩ : BufTy).Contents (Elt F)),
    unary main_v44 main_v46 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    unary main_v45 main_v47 (broadcastInDim S16x1024x1024 ![0, 1, 2] bcast_S16x1x1024_S16x1024x1024_0_1_2 : (⟨S16x1x1024, .f32⟩ : BufTy).Contents (Elt F) → (⟨S16x1024x1024, .f32⟩ : BufTy).Contents (Elt F)),
    binary main_v46 main_v47 main_v48 (addf : (⟨S16x1024x1024, .f32⟩ : BufTy).Contents (Elt F) → (⟨S16x1024x1024, .f32⟩ : BufTy).Contents (Elt F) → (⟨S16x1024x1024, .f32⟩ : BufTy).Contents (Elt F)),
    nullary main_cst_7 (constant S_ .f32 0x40000000#32),
    unary main_cst_7 main_v49 (broadcastInDim S16x1024x1024 ![] bcast_S_S16x1024x1024 : (⟨S_, .f32⟩ : BufTy).Contents (Elt F) → (⟨S16x1024x1024, .f32⟩ : BufTy).Contents (Elt F)),
    binary main_v49 main_v43 main_v50 (mulf : (⟨S16x1024x1024, .f32⟩ : BufTy).Contents (Elt F) → (⟨S16x1024x1024, .f32⟩ : BufTy).Contents (Elt F) → (⟨S16x1024x1024, .f32⟩ : BufTy).Contents (Elt F)),
    binary main_v48 main_v50 main_v51 (subf : (⟨S16x1024x1024, .f32⟩ : BufTy).Contents (Elt F) → (⟨S16x1024x1024, .f32⟩ : BufTy).Contents (Elt F) → (⟨S16x1024x1024, .f32⟩ : BufTy).Contents (Elt F)),
    nullary main_cst_8 (constant S_ .f32 0x00000000#32),
    unary main_cst_8 main_v52 (broadcastInDim S16x1024x1024 ![] bcast_S_S16x1024x1024 : (⟨S_, .f32⟩ : BufTy).Contents (Elt F) → (⟨S16x1024x1024, .f32⟩ : BufTy).Contents (Elt F)),
    binary main_v51 main_v52 main_v53 (maximumf : (⟨S16x1024x1024, .f32⟩ : BufTy).Contents (Elt F) → (⟨S16x1024x1024, .f32⟩ : BufTy).Contents (Elt F) → (⟨S16x1024x1024, .f32⟩ : BufTy).Contents (Elt F)),
    unary main_v53 main_v54 (Host.sqrt : (⟨S16x1024x1024, .f32⟩ : BufTy).Contents (Elt F) → (⟨S16x1024x1024, .f32⟩ : BufTy).Contents (Elt F)) ]
/-- The buffers stretch D1 writes. -/
abbrev WD1 : List (Ref sig .tc) := [main_v39, main_cst_5, main_v40, main_v41, main_cst_6, main_v42, main_v43, main_v44, main_v45, main_v46, main_v47, main_v48, main_cst_7, main_v49, main_v50, main_v51, main_cst_8, main_v52, main_v53, main_v54]
set_option maxRecDepth 8192 in
theorem opsD1_sub : (opsD1 : List (HloOp τ sig (Elt F))).Forall fun op => op.bufs ⊆ tcRefs τ sig :=
  ⟨binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub ..⟩

/-- Stretch L2: 37 operations. -/
abbrev opsL2 : List (HloOp τ sig (Elt F)) :=
  [ unary main_v54 main_v55 ((transpose S16x1024x1024 [0, 2, 1] · transposes_S16x1024x1024_S16x1024x1024_0_2_1) : (⟨S16x1024x1024, .f32⟩ : BufTy).Contents (Elt F) → (⟨S16x1024x1024, .f32⟩ : BufTy).Contents (Elt F)),
    binary main_v54 main_v30 main_v56 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v55 main_v38 main_v57 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v56 main_v57 main_v58 (addf : (⟨S16x1024x300, .f32⟩ : BufTy).Contents (Elt F) → (⟨S16x1024x300, .f32⟩ : BufTy).Contents (Elt F) → (⟨S16x1024x300, .f32⟩ : BufTy).Contents (Elt F)),
    binary main_v55 main_v30 main_v59 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v54 main_v38 main_v60 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v59 main_v60 main_v61 (addf : (⟨S16x1024x300, .f32⟩ : BufTy).Contents (Elt F) → (⟨S16x1024x300, .f32⟩ : BufTy).Contents (Elt F) → (⟨S16x1024x300, .f32⟩ : BufTy).Contents (Elt F)),
    unary main_arg2 main_v62 (broadcastInDim S1x1024x300 ![1, 2] bcast_S1024x300_S1x1024x300_1_2 : (⟨S1024x300, .f32⟩ : BufTy).Contents (Elt F) → (⟨S1x1024x300, .f32⟩ : BufTy).Contents (Elt F)),
    unary main_v62 main_v63 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v63 main_v58 main_v64 (mulf : (⟨S16x1024x300, .f32⟩ : BufTy).Contents (Elt F) → (⟨S16x1024x300, .f32⟩ : BufTy).Contents (Elt F) → (⟨S16x1024x300, .f32⟩ : BufTy).Contents (Elt F)),
    unary main_arg4 main_v65 (broadcastInDim S1x1024x300 ![1, 2] bcast_S1024x300_S1x1024x300_1_2 : (⟨S1024x300, .f32⟩ : BufTy).Contents (Elt F) → (⟨S1x1024x300, .f32⟩ : BufTy).Contents (Elt F)),
    unary main_v65 main_v66 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v66 main_v30 main_v67 (mulf : (⟨S16x1024x300, .f32⟩ : BufTy).Contents (Elt F) → (⟨S16x1024x300, .f32⟩ : BufTy).Contents (Elt F) → (⟨S16x1024x300, .f32⟩ : BufTy).Contents (Elt F)),
    binary main_v64 main_v67 main_v68 (addf : (⟨S16x1024x300, .f32⟩ : BufTy).Contents (Elt F) → (⟨S16x1024x300, .f32⟩ : BufTy).Contents (Elt F) → (⟨S16x1024x300, .f32⟩ : BufTy).Contents (Elt F)),
    nullary main_cst_9 (constant S_ .f32 0x3C23D70A#32),
    TRef.nullary (TRef.of (T := ⟨S_, .f32⟩) main_call2_cst) (constant S_ .f32 0x00000000#32),
    TRef.unary (TRef.of (T := ⟨S_, .f32⟩) main_call2_cst) (TRef.of (T := ⟨S16x1024x300, .f32⟩) main_call2_v0) (broadcastInDim S16x1024x300 ![] bcast_S_S16x1024x300),
    TRef.binary (TRef.of (T := ⟨S16x1024x300, .f32⟩) main_v68) (TRef.of (T := ⟨S16x1024x300, .f32⟩) main_call2_v0) (TRef.of (T := ⟨S16x1024x300, .i1⟩) main_call2_v1) (cmpf .oge),
    TRef.unary (TRef.of (T := ⟨S_, .f32⟩) main_cst_9) (TRef.of (T := ⟨S_, .f32⟩) main_call2_v2) id,
    TRef.unary (TRef.of (T := ⟨S_, .f32⟩) main_call2_v2) (TRef.of (T := ⟨S16x1024x300, .f32⟩) main_call2_v3) (broadcastInDim S16x1024x300 ![] bcast_S_S16x1024x300),
    TRef.binary (TRef.of (T := ⟨S16x1024x300, .f32⟩) main_call2_v3) (TRef.of (T := ⟨S16x1024x300, .f32⟩) main_v68) (TRef.of (T := ⟨S16x1024x300, .f32⟩) main_call2_v4) mulf,
    TRef.ternary (TRef.of (T := ⟨S16x1024x300, .i1⟩) main_call2_v1) (TRef.of (T := ⟨S16x1024x300, .f32⟩) main_v68) (TRef.of (T := ⟨S16x1024x300, .f32⟩) main_call2_v4) (TRef.of (T := ⟨S16x1024x300, .f32⟩) main_v69) select,
    unary main_arg3 main_v70 (broadcastInDim S1x1024x300 ![1, 2] bcast_S1024x300_S1x1024x300_1_2 : (⟨S1024x300, .f32⟩ : BufTy).Contents (Elt F) → (⟨S1x1024x300, .f32⟩ : BufTy).Contents (Elt F)),
    unary main_v70 main_v71 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v71 main_v61 main_v72 (mulf : (⟨S16x1024x300, .f32⟩ : BufTy).Contents (Elt F) → (⟨S16x1024x300, .f32⟩ : BufTy).Contents (Elt F) → (⟨S16x1024x300, .f32⟩ : BufTy).Contents (Elt F)),
    unary main_arg5 main_v73 (broadcastInDim S1x1024x300 ![1, 2] bcast_S1024x300_S1x1024x300_1_2 : (⟨S1024x300, .f32⟩ : BufTy).Contents (Elt F) → (⟨S1x1024x300, .f32⟩ : BufTy).Contents (Elt F)),
    unary main_v73 main_v74 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v74 main_v38 main_v75 (mulf : (⟨S16x1024x300, .f32⟩ : BufTy).Contents (Elt F) → (⟨S16x1024x300, .f32⟩ : BufTy).Contents (Elt F) → (⟨S16x1024x300, .f32⟩ : BufTy).Contents (Elt F)),
    binary main_v72 main_v75 main_v76 (addf : (⟨S16x1024x300, .f32⟩ : BufTy).Contents (Elt F) → (⟨S16x1024x300, .f32⟩ : BufTy).Contents (Elt F) → (⟨S16x1024x300, .f32⟩ : BufTy).Contents (Elt F)),
    nullary main_cst_10 (constant S_ .f32 0x3C23D70A#32),
    TRef.nullary (TRef.of (T := ⟨S_, .f32⟩) main_call3_cst) (constant S_ .f32 0x00000000#32),
    TRef.unary (TRef.of (T := ⟨S_, .f32⟩) main_call3_cst) (TRef.of (T := ⟨S16x1024x300, .f32⟩) main_call3_v0) (broadcastInDim S16x1024x300 ![] bcast_S_S16x1024x300),
    TRef.binary (TRef.of (T := ⟨S16x1024x300, .f32⟩) main_v76) (TRef.of (T := ⟨S16x1024x300, .f32⟩) main_call3_v0) (TRef.of (T := ⟨S16x1024x300, .i1⟩) main_call3_v1) (cmpf .oge),
    TRef.unary (TRef.of (T := ⟨S_, .f32⟩) main_cst_10) (TRef.of (T := ⟨S_, .f32⟩) main_call3_v2) id,
    TRef.unary (TRef.of (T := ⟨S_, .f32⟩) main_call3_v2) (TRef.of (T := ⟨S16x1024x300, .f32⟩) main_call3_v3) (broadcastInDim S16x1024x300 ![] bcast_S_S16x1024x300),
    TRef.binary (TRef.of (T := ⟨S16x1024x300, .f32⟩) main_call3_v3) (TRef.of (T := ⟨S16x1024x300, .f32⟩) main_v76) (TRef.of (T := ⟨S16x1024x300, .f32⟩) main_call3_v4) mulf,
    TRef.ternary (TRef.of (T := ⟨S16x1024x300, .i1⟩) main_call3_v1) (TRef.of (T := ⟨S16x1024x300, .f32⟩) main_v76) (TRef.of (T := ⟨S16x1024x300, .f32⟩) main_call3_v4) (TRef.of (T := ⟨S16x1024x300, .f32⟩) main_v77) select ]
/-- The buffers stretch L2 writes. -/
abbrev WL2 : List (Ref sig .tc) := [main_v55, main_v56, main_v57, main_v58, main_v59, main_v60, main_v61, main_v62, main_v63, main_v64, main_v65, main_v66, main_v67, main_v68, main_cst_9, main_call2_cst, main_call2_v0, main_call2_v1, main_call2_v2, main_call2_v3, main_call2_v4, main_v69, main_v70, main_v71, main_v72, main_v73, main_v74, main_v75, main_v76, main_cst_10, main_call3_cst, main_call3_v0, main_call3_v1, main_call3_v2, main_call3_v3, main_call3_v4, main_v77]
set_option maxRecDepth 8192 in
theorem opsL2_sub : (opsL2 : List (HloOp τ sig (Elt F))).Forall fun op => op.bufs ⊆ tcRefs τ sig :=
  ⟨unary_bufs_sub .., binary_bufs_sub .., binary_bufs_sub .., binary_bufs_sub .., binary_bufs_sub .., binary_bufs_sub .., binary_bufs_sub .., unary_bufs_sub .., unary_bufs_sub .., binary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., unary_bufs_sub .., binary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

/-- Stretch D2: 20 operations. -/
abbrev opsD2 : List (HloOp τ sig (Elt F)) :=
  [ binary main_v69 main_v69 main_v78 (mulf : (⟨S16x1024x300, .f32⟩ : BufTy).Contents (Elt F) → (⟨S16x1024x300, .f32⟩ : BufTy).Contents (Elt F) → (⟨S16x1024x300, .f32⟩ : BufTy).Contents (Elt F)),
    nullary main_cst_11 (constant S_ .f32 0x00000000#32),
    binary main_v78 main_cst_11 main_v79 ((fun x v => Host.reduceAdd x v reducesTo_S16x1024x300_S16x1024_d2 h_S_) : (⟨S16x1024x300, .f32⟩ : BufTy).Contents (Elt F) → (⟨S_, .f32⟩ : BufTy).Contents (Elt F) → (⟨S16x1024, .f32⟩ : BufTy).Contents (Elt F)),
    binary main_v77 main_v77 main_v80 (mulf : (⟨S16x1024x300, .f32⟩ : BufTy).Contents (Elt F) → (⟨S16x1024x300, .f32⟩ : BufTy).Contents (Elt F) → (⟨S16x1024x300, .f32⟩ : BufTy).Contents (Elt F)),
    nullary main_cst_12 (constant S_ .f32 0x00000000#32),
    binary main_v80 main_cst_12 main_v81 ((fun x v => Host.reduceAdd x v reducesTo_S16x1024x300_S16x1024_d2 h_S_) : (⟨S16x1024x300, .f32⟩ : BufTy).Contents (Elt F) → (⟨S_, .f32⟩ : BufTy).Contents (Elt F) → (⟨S16x1024, .f32⟩ : BufTy).Contents (Elt F)),
    binary main_v69 main_v77 main_v82 ((fun l r => Host.dotGeneral dot_S16x1024x300_S16x1024x300_S16x1024x1024_2_2_1_1_0_0 none l r) : (⟨S16x1024x300, .f32⟩ : BufTy).Contents (Elt F) → (⟨S16x1024x300, .f32⟩ : BufTy).Contents (Elt F) → (⟨S16x1024x1024, .f32⟩ : BufTy).Contents (Elt F)),
    unary main_v79 main_v83 (broadcastInDim S16x1024x1 ![0, 1] bcast_S16x1024_S16x1024x1_0_1 : (⟨S16x1024, .f32⟩ : BufTy).Contents (Elt F) → (⟨S16x1024x1, .f32⟩ : BufTy).Contents (Elt F)),
    unary main_v81 main_v84 (broadcastInDim S16x1x1024 ![0, 2] bcast_S16x1024_S16x1x1024_0_2 : (⟨S16x1024, .f32⟩ : BufTy).Contents (Elt F) → (⟨S16x1x1024, .f32⟩ : BufTy).Contents (Elt F)),
    unary main_v83 main_v85 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    unary main_v84 main_v86 (broadcastInDim S16x1024x1024 ![0, 1, 2] bcast_S16x1x1024_S16x1024x1024_0_1_2 : (⟨S16x1x1024, .f32⟩ : BufTy).Contents (Elt F) → (⟨S16x1024x1024, .f32⟩ : BufTy).Contents (Elt F)),
    binary main_v85 main_v86 main_v87 (addf : (⟨S16x1024x1024, .f32⟩ : BufTy).Contents (Elt F) → (⟨S16x1024x1024, .f32⟩ : BufTy).Contents (Elt F) → (⟨S16x1024x1024, .f32⟩ : BufTy).Contents (Elt F)),
    nullary main_cst_13 (constant S_ .f32 0x40000000#32),
    unary main_cst_13 main_v88 (broadcastInDim S16x1024x1024 ![] bcast_S_S16x1024x1024 : (⟨S_, .f32⟩ : BufTy).Contents (Elt F) → (⟨S16x1024x1024, .f32⟩ : BufTy).Contents (Elt F)),
    binary main_v88 main_v82 main_v89 (mulf : (⟨S16x1024x1024, .f32⟩ : BufTy).Contents (Elt F) → (⟨S16x1024x1024, .f32⟩ : BufTy).Contents (Elt F) → (⟨S16x1024x1024, .f32⟩ : BufTy).Contents (Elt F)),
    binary main_v87 main_v89 main_v90 (subf : (⟨S16x1024x1024, .f32⟩ : BufTy).Contents (Elt F) → (⟨S16x1024x1024, .f32⟩ : BufTy).Contents (Elt F) → (⟨S16x1024x1024, .f32⟩ : BufTy).Contents (Elt F)),
    nullary main_cst_14 (constant S_ .f32 0x00000000#32),
    unary main_cst_14 main_v91 (broadcastInDim S16x1024x1024 ![] bcast_S_S16x1024x1024 : (⟨S_, .f32⟩ : BufTy).Contents (Elt F) → (⟨S16x1024x1024, .f32⟩ : BufTy).Contents (Elt F)),
    binary main_v90 main_v91 main_v92 (maximumf : (⟨S16x1024x1024, .f32⟩ : BufTy).Contents (Elt F) → (⟨S16x1024x1024, .f32⟩ : BufTy).Contents (Elt F) → (⟨S16x1024x1024, .f32⟩ : BufTy).Contents (Elt F)),
    unary main_v92 main_v93 (Host.sqrt : (⟨S16x1024x1024, .f32⟩ : BufTy).Contents (Elt F) → (⟨S16x1024x1024, .f32⟩ : BufTy).Contents (Elt F)) ]
/-- The buffers stretch D2 writes. -/
abbrev WD2 : List (Ref sig .tc) := [main_v78, main_cst_11, main_v79, main_v80, main_cst_12, main_v81, main_v82, main_v83, main_v84, main_v85, main_v86, main_v87, main_cst_13, main_v88, main_v89, main_v90, main_cst_14, main_v91, main_v92, main_v93]
set_option maxRecDepth 8192 in
theorem opsD2_sub : (opsD2 : List (HloOp τ sig (Elt F))).Forall fun op => op.bufs ⊆ tcRefs τ sig :=
  ⟨binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub ..⟩

/-- Stretch L3: 37 operations. -/
abbrev opsL3 : List (HloOp τ sig (Elt F)) :=
  [ unary main_v93 main_v94 ((transpose S16x1024x1024 [0, 2, 1] · transposes_S16x1024x1024_S16x1024x1024_0_2_1) : (⟨S16x1024x1024, .f32⟩ : BufTy).Contents (Elt F) → (⟨S16x1024x1024, .f32⟩ : BufTy).Contents (Elt F)),
    binary main_v93 main_v69 main_v95 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v94 main_v77 main_v96 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v95 main_v96 main_v97 (addf : (⟨S16x1024x300, .f32⟩ : BufTy).Contents (Elt F) → (⟨S16x1024x300, .f32⟩ : BufTy).Contents (Elt F) → (⟨S16x1024x300, .f32⟩ : BufTy).Contents (Elt F)),
    binary main_v94 main_v69 main_v98 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v93 main_v77 main_v99 ((fun l r => Host.dotGeneral dot_S16x1024x1024_S16x1024x300_S16x1024x300_2_1_1_2_0_0 none l r) : (⟨S16x1024x1024, .f32⟩ : BufTy).Contents (Elt F) → (⟨S16x1024x300, .f32⟩ : BufTy).Contents (Elt F) → (⟨S16x1024x300, .f32⟩ : BufTy).Contents (Elt F)),
    binary main_v98 main_v99 main_v100 (addf : (⟨S16x1024x300, .f32⟩ : BufTy).Contents (Elt F) → (⟨S16x1024x300, .f32⟩ : BufTy).Contents (Elt F) → (⟨S16x1024x300, .f32⟩ : BufTy).Contents (Elt F)),
    unary main_arg2 main_v101 (broadcastInDim S1x1024x300 ![1, 2] bcast_S1024x300_S1x1024x300_1_2 : (⟨S1024x300, .f32⟩ : BufTy).Contents (Elt F) → (⟨S1x1024x300, .f32⟩ : BufTy).Contents (Elt F)),
    unary main_v101 main_v102 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v102 main_v97 main_v103 (mulf : (⟨S16x1024x300, .f32⟩ : BufTy).Contents (Elt F) → (⟨S16x1024x300, .f32⟩ : BufTy).Contents (Elt F) → (⟨S16x1024x300, .f32⟩ : BufTy).Contents (Elt F)),
    unary main_arg4 main_v104 (broadcastInDim S1x1024x300 ![1, 2] bcast_S1024x300_S1x1024x300_1_2 : (⟨S1024x300, .f32⟩ : BufTy).Contents (Elt F) → (⟨S1x1024x300, .f32⟩ : BufTy).Contents (Elt F)),
    unary main_v104 main_v105 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v105 main_v69 main_v106 (mulf : (⟨S16x1024x300, .f32⟩ : BufTy).Contents (Elt F) → (⟨S16x1024x300, .f32⟩ : BufTy).Contents (Elt F) → (⟨S16x1024x300, .f32⟩ : BufTy).Contents (Elt F)),
    binary main_v103 main_v106 main_v107 (addf : (⟨S16x1024x300, .f32⟩ : BufTy).Contents (Elt F) → (⟨S16x1024x300, .f32⟩ : BufTy).Contents (Elt F) → (⟨S16x1024x300, .f32⟩ : BufTy).Contents (Elt F)),
    nullary main_cst_15 (constant S_ .f32 0x3C23D70A#32),
    TRef.nullary (TRef.of (T := ⟨S_, .f32⟩) main_call4_cst) (constant S_ .f32 0x00000000#32),
    TRef.unary (TRef.of (T := ⟨S_, .f32⟩) main_call4_cst) (TRef.of (T := ⟨S16x1024x300, .f32⟩) main_call4_v0) (broadcastInDim S16x1024x300 ![] bcast_S_S16x1024x300),
    TRef.binary (TRef.of (T := ⟨S16x1024x300, .f32⟩) main_v107) (TRef.of (T := ⟨S16x1024x300, .f32⟩) main_call4_v0) (TRef.of (T := ⟨S16x1024x300, .i1⟩) main_call4_v1) (cmpf .oge),
    TRef.unary (TRef.of (T := ⟨S_, .f32⟩) main_cst_15) (TRef.of (T := ⟨S_, .f32⟩) main_call4_v2) id,
    TRef.unary (TRef.of (T := ⟨S_, .f32⟩) main_call4_v2) (TRef.of (T := ⟨S16x1024x300, .f32⟩) main_call4_v3) (broadcastInDim S16x1024x300 ![] bcast_S_S16x1024x300),
    TRef.binary (TRef.of (T := ⟨S16x1024x300, .f32⟩) main_call4_v3) (TRef.of (T := ⟨S16x1024x300, .f32⟩) main_v107) (TRef.of (T := ⟨S16x1024x300, .f32⟩) main_call4_v4) mulf,
    TRef.ternary (TRef.of (T := ⟨S16x1024x300, .i1⟩) main_call4_v1) (TRef.of (T := ⟨S16x1024x300, .f32⟩) main_v107) (TRef.of (T := ⟨S16x1024x300, .f32⟩) main_call4_v4) (TRef.of (T := ⟨S16x1024x300, .f32⟩) main_v108) select,
    unary main_arg3 main_v109 (broadcastInDim S1x1024x300 ![1, 2] bcast_S1024x300_S1x1024x300_1_2 : (⟨S1024x300, .f32⟩ : BufTy).Contents (Elt F) → (⟨S1x1024x300, .f32⟩ : BufTy).Contents (Elt F)),
    unary main_v109 main_v110 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v110 main_v100 main_v111 (mulf : (⟨S16x1024x300, .f32⟩ : BufTy).Contents (Elt F) → (⟨S16x1024x300, .f32⟩ : BufTy).Contents (Elt F) → (⟨S16x1024x300, .f32⟩ : BufTy).Contents (Elt F)),
    unary main_arg5 main_v112 (broadcastInDim S1x1024x300 ![1, 2] bcast_S1024x300_S1x1024x300_1_2 : (⟨S1024x300, .f32⟩ : BufTy).Contents (Elt F) → (⟨S1x1024x300, .f32⟩ : BufTy).Contents (Elt F)),
    unary main_v112 main_v113 (broadcastInDim S16x1024x300 ![0, 1, 2] bcast_S1x1024x300_S16x1024x300_0_1_2 : (⟨S1x1024x300, .f32⟩ : BufTy).Contents (Elt F) → (⟨S16x1024x300, .f32⟩ : BufTy).Contents (Elt F)),
    binary main_v113 main_v77 main_v114 (mulf : (⟨S16x1024x300, .f32⟩ : BufTy).Contents (Elt F) → (⟨S16x1024x300, .f32⟩ : BufTy).Contents (Elt F) → (⟨S16x1024x300, .f32⟩ : BufTy).Contents (Elt F)),
    binary main_v111 main_v114 main_v115 (addf : (⟨S16x1024x300, .f32⟩ : BufTy).Contents (Elt F) → (⟨S16x1024x300, .f32⟩ : BufTy).Contents (Elt F) → (⟨S16x1024x300, .f32⟩ : BufTy).Contents (Elt F)),
    nullary main_cst_16 (constant S_ .f32 0x3C23D70A#32),
    TRef.nullary (TRef.of (T := ⟨S_, .f32⟩) main_call5_cst) (constant S_ .f32 0x00000000#32),
    TRef.unary (TRef.of (T := ⟨S_, .f32⟩) main_call5_cst) (TRef.of (T := ⟨S16x1024x300, .f32⟩) main_call5_v0) (broadcastInDim S16x1024x300 ![] bcast_S_S16x1024x300),
    TRef.binary (TRef.of (T := ⟨S16x1024x300, .f32⟩) main_v115) (TRef.of (T := ⟨S16x1024x300, .f32⟩) main_call5_v0) (TRef.of (T := ⟨S16x1024x300, .i1⟩) main_call5_v1) (cmpf .oge),
    TRef.unary (TRef.of (T := ⟨S_, .f32⟩) main_cst_16) (TRef.of (T := ⟨S_, .f32⟩) main_call5_v2) id,
    TRef.unary (TRef.of (T := ⟨S_, .f32⟩) main_call5_v2) (TRef.of (T := ⟨S16x1024x300, .f32⟩) main_call5_v3) (broadcastInDim S16x1024x300 ![] bcast_S_S16x1024x300),
    TRef.binary (TRef.of (T := ⟨S16x1024x300, .f32⟩) main_call5_v3) (TRef.of (T := ⟨S16x1024x300, .f32⟩) main_v115) (TRef.of (T := ⟨S16x1024x300, .f32⟩) main_call5_v4) mulf,
    TRef.ternary (TRef.of (T := ⟨S16x1024x300, .i1⟩) main_call5_v1) (TRef.of (T := ⟨S16x1024x300, .f32⟩) main_v115) (TRef.of (T := ⟨S16x1024x300, .f32⟩) main_call5_v4) (TRef.of (T := ⟨S16x1024x300, .f32⟩) main_v116) select ]
/-- The buffers stretch L3 writes. -/
abbrev WL3 : List (Ref sig .tc) := [main_v94, main_v95, main_v96, main_v97, main_v98, main_v99, main_v100, main_v101, main_v102, main_v103, main_v104, main_v105, main_v106, main_v107, main_cst_15, main_call4_cst, main_call4_v0, main_call4_v1, main_call4_v2, main_call4_v3, main_call4_v4, main_v108, main_v109, main_v110, main_v111, main_v112, main_v113, main_v114, main_v115, main_cst_16, main_call5_cst, main_call5_v0, main_call5_v1, main_call5_v2, main_call5_v3, main_call5_v4, main_v116]
set_option maxRecDepth 8192 in
theorem opsL3_sub : (opsL3 : List (HloOp τ sig (Elt F))).Forall fun op => op.bufs ⊆ tcRefs τ sig :=
  ⟨unary_bufs_sub .., binary_bufs_sub .., binary_bufs_sub .., binary_bufs_sub .., binary_bufs_sub .., binary_bufs_sub .., binary_bufs_sub .., unary_bufs_sub .., unary_bufs_sub .., binary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., unary_bufs_sub .., binary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

/-- Stretch D3: 20 operations. -/
abbrev opsD3 : List (HloOp τ sig (Elt F)) :=
  [ binary main_v108 main_v108 main_v117 (mulf : (⟨S16x1024x300, .f32⟩ : BufTy).Contents (Elt F) → (⟨S16x1024x300, .f32⟩ : BufTy).Contents (Elt F) → (⟨S16x1024x300, .f32⟩ : BufTy).Contents (Elt F)),
    nullary main_cst_17 (constant S_ .f32 0x00000000#32),
    binary main_v117 main_cst_17 main_v118 ((fun x v => Host.reduceAdd x v reducesTo_S16x1024x300_S16x1024_d2 h_S_) : (⟨S16x1024x300, .f32⟩ : BufTy).Contents (Elt F) → (⟨S_, .f32⟩ : BufTy).Contents (Elt F) → (⟨S16x1024, .f32⟩ : BufTy).Contents (Elt F)),
    binary main_v116 main_v116 main_v119 (mulf : (⟨S16x1024x300, .f32⟩ : BufTy).Contents (Elt F) → (⟨S16x1024x300, .f32⟩ : BufTy).Contents (Elt F) → (⟨S16x1024x300, .f32⟩ : BufTy).Contents (Elt F)),
    nullary main_cst_18 (constant S_ .f32 0x00000000#32),
    binary main_v119 main_cst_18 main_v120 ((fun x v => Host.reduceAdd x v reducesTo_S16x1024x300_S16x1024_d2 h_S_) : (⟨S16x1024x300, .f32⟩ : BufTy).Contents (Elt F) → (⟨S_, .f32⟩ : BufTy).Contents (Elt F) → (⟨S16x1024, .f32⟩ : BufTy).Contents (Elt F)),
    binary main_v108 main_v116 main_v121 ((fun l r => Host.dotGeneral dot_S16x1024x300_S16x1024x300_S16x1024x1024_2_2_1_1_0_0 none l r) : (⟨S16x1024x300, .f32⟩ : BufTy).Contents (Elt F) → (⟨S16x1024x300, .f32⟩ : BufTy).Contents (Elt F) → (⟨S16x1024x1024, .f32⟩ : BufTy).Contents (Elt F)),
    unary main_v118 main_v122 (broadcastInDim S16x1024x1 ![0, 1] bcast_S16x1024_S16x1024x1_0_1 : (⟨S16x1024, .f32⟩ : BufTy).Contents (Elt F) → (⟨S16x1024x1, .f32⟩ : BufTy).Contents (Elt F)),
    unary main_v120 main_v123 (broadcastInDim S16x1x1024 ![0, 2] bcast_S16x1024_S16x1x1024_0_2 : (⟨S16x1024, .f32⟩ : BufTy).Contents (Elt F) → (⟨S16x1x1024, .f32⟩ : BufTy).Contents (Elt F)),
    unary main_v122 main_v124 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    unary main_v123 main_v125 (broadcastInDim S16x1024x1024 ![0, 1, 2] bcast_S16x1x1024_S16x1024x1024_0_1_2 : (⟨S16x1x1024, .f32⟩ : BufTy).Contents (Elt F) → (⟨S16x1024x1024, .f32⟩ : BufTy).Contents (Elt F)),
    binary main_v124 main_v125 main_v126 (addf : (⟨S16x1024x1024, .f32⟩ : BufTy).Contents (Elt F) → (⟨S16x1024x1024, .f32⟩ : BufTy).Contents (Elt F) → (⟨S16x1024x1024, .f32⟩ : BufTy).Contents (Elt F)),
    nullary main_cst_19 (constant S_ .f32 0x40000000#32),
    unary main_cst_19 main_v127 (broadcastInDim S16x1024x1024 ![] bcast_S_S16x1024x1024 : (⟨S_, .f32⟩ : BufTy).Contents (Elt F) → (⟨S16x1024x1024, .f32⟩ : BufTy).Contents (Elt F)),
    binary main_v127 main_v121 main_v128 (mulf : (⟨S16x1024x1024, .f32⟩ : BufTy).Contents (Elt F) → (⟨S16x1024x1024, .f32⟩ : BufTy).Contents (Elt F) → (⟨S16x1024x1024, .f32⟩ : BufTy).Contents (Elt F)),
    binary main_v126 main_v128 main_v129 (subf : (⟨S16x1024x1024, .f32⟩ : BufTy).Contents (Elt F) → (⟨S16x1024x1024, .f32⟩ : BufTy).Contents (Elt F) → (⟨S16x1024x1024, .f32⟩ : BufTy).Contents (Elt F)),
    nullary main_cst_20 (constant S_ .f32 0x00000000#32),
    unary main_cst_20 main_v130 (broadcastInDim S16x1024x1024 ![] bcast_S_S16x1024x1024 : (⟨S_, .f32⟩ : BufTy).Contents (Elt F) → (⟨S16x1024x1024, .f32⟩ : BufTy).Contents (Elt F)),
    binary main_v129 main_v130 main_v131 (maximumf : (⟨S16x1024x1024, .f32⟩ : BufTy).Contents (Elt F) → (⟨S16x1024x1024, .f32⟩ : BufTy).Contents (Elt F) → (⟨S16x1024x1024, .f32⟩ : BufTy).Contents (Elt F)),
    unary main_v131 main_v132 (Host.sqrt : (⟨S16x1024x1024, .f32⟩ : BufTy).Contents (Elt F) → (⟨S16x1024x1024, .f32⟩ : BufTy).Contents (Elt F)) ]
/-- The buffers stretch D3 writes. -/
abbrev WD3 : List (Ref sig .tc) := [main_v117, main_cst_17, main_v118, main_v119, main_cst_18, main_v120, main_v121, main_v122, main_v123, main_v124, main_v125, main_v126, main_cst_19, main_v127, main_v128, main_v129, main_cst_20, main_v130, main_v131, main_v132]
set_option maxRecDepth 8192 in
theorem opsD3_sub : (opsD3 : List (HloOp τ sig (Elt F))).Forall fun op => op.bufs ⊆ tcRefs τ sig :=
  ⟨binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub ..⟩

end Cert.ReferenceIdeal.RefRun

end
-- ==== Proof.RefDefs.lean ====
/-
  The reference program's stretches as functions of whole arrays, in the program's own operations and operand
  order: one distance matrix of a batch of sixteen, the leaky rectifier, the two updates of a layer, and the
  whole result (three layers, then a distance). The program's run ends with its result at `refOut` of the
  six arguments; each function is read at an index elsewhere.
-/
import proofs.«114613_j33517924778635_1_alg».proof.ReferenceIdeal
import proofs.«114613_j33517924778635_1_alg».proof.Proof.Gen.ReferenceIdeal

noncomputable section

namespace Cert.ReferenceIdeal.Layers

open Cert.ReferenceIdeal Cert.ReferenceIdeal.Gen Idealize.ShloMosaic

variable {F : FTy → Type} [FloatOps F]

/-- The batch of distance matrices of `h` and `d`: row norms broadcast along columns plus column norms
    broadcast along rows, minus twice the batched product over the 300 columns, clamped at zero, rooted. -/
def refDist (h d : FVec F S16x1024x300 .f32) : FVec F S16x1024x1024 .f32 :=
  Host.sqrt (maximumf
    (subf
      (addf
        (broadcastInDim S16x1024x1024 ![0, 1, 2] bcast_S16x1024x1_S16x1024x1024_0_1_2
          (broadcastInDim S16x1024x1 ![0, 1] bcast_S16x1024_S16x1024x1_0_1
            (Host.reduceAdd (mulf h h) (constant S_ .f32 0x00000000#32) reducesTo_S16x1024x300_S16x1024_d2 h_S_)))
        (broadcastInDim S16x1024x1024 ![0, 1, 2] bcast_S16x1x1024_S16x1024x1024_0_1_2
          (broadcastInDim S16x1x1024 ![0, 2] bcast_S16x1024_S16x1x1024_0_2
            (Host.reduceAdd (mulf d d) (constant S_ .f32 0x00000000#32) reducesTo_S16x1024x300_S16x1024_d2 h_S_))))
      (mulf (broadcastInDim S16x1024x1024 ![] bcast_S_S16x1024x1024 (constant S_ .f32 0x40000000#32))
        (Host.dotGeneral dot_S16x1024x300_S16x1024x300_S16x1024x1024_2_2_1_1_0_0 none h d)))
    (broadcastInDim S16x1024x1024 ![] bcast_S_S16x1024x1024 (constant S_ .f32 0x00000000#32)))

/-- The leaky rectifier over a batch: `x` where it is at least zero, else the slope times `x`. -/
def refLrelu (x : FVec F S16x1024x300 .f32) : FVec F S16x1024x300 .f32 :=
  select (cmpf .oge x (broadcastInDim S16x1024x300 ![] bcast_S_S16x1024x300 (constant S_ .f32 0x00000000#32))) x
    (mulf (broadcastInDim S16x1024x300 ![] bcast_S_S16x1024x300 (id (constant S_ .f32 0x3C23D70A#32))) x)

/-- A parameter array repeated over the batch. -/
def refRep (W : FVec F S1024x300 .f32) : FVec F S16x1024x300 .f32 :=
  broadcastInDim S16x1024x300 ![0, 1, 2] bcast_S1x1024x300_S16x1024x300_0_1_2
    (broadcastInDim S1x1024x300 ![1, 2] bcast_S1024x300_S1x1024x300_1_2 W)

/-- Each distance matrix of the batch transposed. -/
def refT (s : FVec F S16x1024x1024 .f32) : FVec F S16x1024x1024 .f32 :=
  transpose S16x1024x1024 [0, 2, 1] s transposes_S16x1024x1024_S16x1024x1024_0_2_1

/-- The batched product of a batch of square matrices with a batch of 1024 × 300 arrays. -/
def refMM (s : FVec F S16x1024x1024 .f32) (x : FVec F S16x1024x300 .f32) : FVec F S16x1024x300 .f32 :=
  Host.dotGeneral dot_S16x1024x1024_S16x1024x300_S16x1024x300_2_1_1_2_0_0 none s x

/-- The heads' update over the batch. -/
def refUpdH (W B : FVec F S1024x300 .f32) (s : FVec F S16x1024x1024 .f32) (h d : FVec F S16x1024x300 .f32) :
    FVec F S16x1024x300 .f32 :=
  refLrelu (addf (mulf (refRep W) (addf (refMM s h) (refMM (refT s) d))) (mulf (refRep B) h))

/-- The dependents' update over the batch. -/
def refUpdD (W B : FVec F S1024x300 .f32) (s : FVec F S16x1024x1024 .f32) (h d : FVec F S16x1024x300 .f32) :
    FVec F S16x1024x300 .f32 :=
  refLrelu (addf (mulf (refRep W) (addf (refMM (refT s) h) (refMM s d))) (mulf (refRep B) d))

/-- The heads after one layer from `(h, d)`. -/
def refH (a2 a4 : FVec F S1024x300 .f32) (h d : FVec F S16x1024x300 .f32) : FVec F S16x1024x300 .f32 :=
  refUpdH a2 a4 (refDist h d) h d

/-- The dependents after one layer from `(h, d)`. -/
def refD (a3 a5 : FVec F S1024x300 .f32) (h d : FVec F S16x1024x300 .f32) : FVec F S16x1024x300 .f32 :=
  refUpdD a3 a5 (refDist h d) h d

end Cert.ReferenceIdeal.Layers

end
-- ==== Proof.RefRun.lean ====
/-
  The reference program's run, read back. Its 191 operations are seven stretches — the distances of the arguments,
  then three times a layer and the distances of its result. The contents after a list of operations is a left fold,
  so it splits along the stretches; over ANY contents each stretch's results are one application of the
  stretch's function (`refDist`, `refUpdH`, `refUpdD`) to the contents it reads, and a buffer a stretch does not write
  keeps its contents through it. Composed: the program ends with its result at `refOut` of the six arguments, the
  arguments unchanged.
-/
import proofs.«114613_j33517924778635_1_alg».proof.Proof.RefOps
import proofs.«114613_j33517924778635_1_alg».proof.Proof.RefDefs
import Idealize.ShloMosaic.Lib.StableHlo.Run

noncomputable section

namespace Cert.ReferenceIdeal.RefRun

open Cert.ReferenceIdeal Cert.ReferenceIdeal.Gen Cert.ReferenceIdeal.Layers
open Idealize.ShloMosaic Idealize.ShloMosaic.TcCoe Idealize.SL.Sem Idealize.ShloMosaic.StableHlo

variable {F : FTy → Type} [FloatOps F]

/-! ## The whole result as a function of the arguments -/

/-- One layer over the batch, on the pair (heads, dependents). -/
def refLayer (a2 a3 a4 a5 : FVec F S1024x300 .f32) (p : FVec F S16x1024x300 .f32 × FVec F S16x1024x300 .f32) :
    FVec F S16x1024x300 .f32 × FVec F S16x1024x300 .f32 :=
  (refUpdH a2 a4 (refDist p.1 p.2) p.1 p.2, refUpdD a3 a5 (refDist p.1 p.2) p.1 p.2)

/-- The program's result: the distances after three layers. -/
def refOut (a0 a1 : FVec F S16x1024x300 .f32) (a2 a3 a4 a5 : FVec F S1024x300 .f32) : FVec F S16x1024x1024 .f32 :=
  refDist (refLayer a2 a3 a4 a5 (refLayer a2 a3 a4 a5 (refLayer a2 a3 a4 a5 (a0, a1)))).1
    (refLayer a2 a3 a4 a5 (refLayer a2 a3 a4 a5 (refLayer a2 a3 a4 a5 (a0, a1)))).2

/-! ## The program is its operations in order -/

/-- The contents after two lists run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- All 191 operations, in order. -/
abbrev ops : List (HloOp τ sig (Elt F)) := opsD0 ++ (opsL1 ++ (opsD1 ++ (opsL2 ++ (opsD2 ++ (opsL3 ++ opsD3)))))

set_option maxRecDepth 65536 in
set_option maxHeartbeats 8000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨opsD0_sub, List.forall_append.mpr ⟨opsL1_sub, List.forall_append.mpr ⟨opsD1_sub,
    List.forall_append.mpr ⟨opsL2_sub, List.forall_append.mpr ⟨opsD2_sub, List.forall_append.mpr ⟨opsL3_sub, opsD3_sub⟩⟩⟩⟩⟩⟩

/-! ## Each stretch over any contents

`𝕍` below is any assignment of contents to the device's buffers. A stretch's operations each write one buffer of the
stretch's list, so a buffer outside the list keeps its contents through the stretch; and the one or two buffers a later
stretch reads are the stretch's function of the contents the stretch itself read. -/

/-- Every operation of a literal list writes a buffer of the list's written buffers. -/
local macro "stretch_writes" : tactic =>
  `(tactic| (simp only [List.Forall]
             repeat' apply And.intro
             all_goals (simp only [nullary_writes, unary_writes, binary_writes, ternary_writes,
                          Finset.singleton_subset_iff, List.mem_toFinset]
                        exact List.mem_map_of_mem (by decide))))

set_option maxRecDepth 8192 in
theorem opsD0_writes : (opsD0 : List (HloOp τ sig (Elt F))).Forall fun op =>
    op.writes ⊆ (WD0.map (Proc.devRef (τ := τ) .tc)).toFinset := by
  stretch_writes

/-- A buffer stretch D0 does not write keeps its contents through it. -/
theorem keepD0 (V : Valuation τ sig (Elt F)) (r : Ref sig .tc) (h : r ∉ WD0) :
    after opsD0 V (Proc.devRef .tc r) = V (Proc.devRef .tc r) :=
  after_of_writes_sub opsD0 V opsD0_writes h

set_option maxRecDepth 8192 in
set_option maxHeartbeats 2000000 in
/-- Stretch D0 leaves the distances of the pair it reads. -/
theorem valD0 (V : Valuation τ sig (Elt F)) :
    after opsD0 V (Proc.devRef .tc main_v15) = refDist (V (Proc.devRef .tc main_arg0)) (V (Proc.devRef .tc main_arg1)) := by
  simp only [opsD0]
  after_results_simp
  rfl

set_option maxRecDepth 8192 in
theorem opsL1_writes : (opsL1 : List (HloOp τ sig (Elt F))).Forall fun op =>
    op.writes ⊆ (WL1.map (Proc.devRef (τ := τ) .tc)).toFinset := by
  stretch_writes

/-- A buffer stretch L1 does not write keeps its contents through it. -/
theorem keepL1 (V : Valuation τ sig (Elt F)) (r : Ref sig .tc) (h : r ∉ WL1) :
    after opsL1 V (Proc.devRef .tc r) = V (Proc.devRef .tc r) :=
  after_of_writes_sub opsL1 V opsL1_writes h

set_option maxRecDepth 8192 in
set_option maxHeartbeats 4000000 in
/-- Stretch L1 leaves the updated heads … -/
theorem valL1_h (V : Valuation τ sig (Elt F)) :
    after opsL1 V (Proc.devRef .tc main_v30)
      = refUpdH (V (Proc.devRef .tc main_arg2)) (V (Proc.devRef .tc main_arg4)) (V (Proc.devRef .tc main_v15)) (V (Proc.devRef .tc main_arg0)) (V (Proc.devRef .tc main_arg1)) := by
  simp only [opsL1]
  after_results_simp
  rfl

set_option maxRecDepth 8192 in
set_option maxHeartbeats 4000000 in
/-- … and the updated dependents. -/
theorem valL1_d (V : Valuation τ sig (Elt F)) :
    after opsL1 V (Proc.devRef .tc main_v38)
      = refUpdD (V (Proc.devRef .tc main_arg3)) (V (Proc.devRef .tc main_arg5)) (V (Proc.devRef .tc main_v15)) (V (Proc.devRef .tc main_arg0)) (V (Proc.devRef .tc main_arg1)) := by
  simp only [opsL1]
  after_results_simp
  rfl

set_option maxRecDepth 8192 in
theorem opsD1_writes : (opsD1 : List (HloOp τ sig (Elt F))).Forall fun op =>
    op.writes ⊆ (WD1.map (Proc.devRef (τ := τ) .tc)).toFinset := by
  stretch_writes

/-- A buffer stretch D1 does not write keeps its contents through it. -/
theorem keepD1 (V : Valuation τ sig (Elt F)) (r : Ref sig .tc) (h : r ∉ WD1) :
    after opsD1 V (Proc.devRef .tc r) = V (Proc.devRef .tc r) :=
  after_of_writes_sub opsD1 V opsD1_writes h

set_option maxRecDepth 8192 in
set_option maxHeartbeats 2000000 in
/-- Stretch D1 leaves the distances of the pair it reads. -/
theorem valD1 (V : Valuation τ sig (Elt F)) :
    after opsD1 V (Proc.devRef .tc main_v54) = refDist (V (Proc.devRef .tc main_v30)) (V (Proc.devRef .tc main_v38)) := by
  simp only [opsD1]
  after_results_simp
  rfl

set_option maxRecDepth 8192 in
theorem opsL2_writes : (opsL2 : List (HloOp τ sig (Elt F))).Forall fun op =>
    op.writes ⊆ (WL2.map (Proc.devRef (τ := τ) .tc)).toFinset := by
  stretch_writes

/-- A buffer stretch L2 does not write keeps its contents through it. -/
theorem keepL2 (V : Valuation τ sig (Elt F)) (r : Ref sig .tc) (h : r ∉ WL2) :
    after opsL2 V (Proc.devRef .tc r) = V (Proc.devRef .tc r) :=
  after_of_writes_sub opsL2 V opsL2_writes h

set_option maxRecDepth 8192 in
set_option maxHeartbeats 4000000 in
/-- Stretch L2 leaves the updated heads … -/
theorem valL2_h (V : Valuation τ sig (Elt F)) :
    after opsL2 V (Proc.devRef .tc main_v69)
      = refUpdH (V (Proc.devRef .tc main_arg2)) (V (Proc.devRef .tc main_arg4)) (V (Proc.devRef .tc main_v54)) (V (Proc.devRef .tc main_v30)) (V (Proc.devRef .tc main_v38)) := by
  simp only [opsL2]
  after_results_simp
  rfl

set_option maxRecDepth 8192 in
set_option maxHeartbeats 4000000 in
/-- … and the updated dependents. -/
theorem valL2_d (V : Valuation τ sig (Elt F)) :
    after opsL2 V (Proc.devRef .tc main_v77)
      = refUpdD (V (Proc.devRef .tc main_arg3)) (V (Proc.devRef .tc main_arg5)) (V (Proc.devRef .tc main_v54)) (V (Proc.devRef .tc main_v30)) (V (Proc.devRef .tc main_v38)) := by
  simp only [opsL2]
  after_results_simp
  rfl

set_option maxRecDepth 8192 in
theorem opsD2_writes : (opsD2 : List (HloOp τ sig (Elt F))).Forall fun op =>
    op.writes ⊆ (WD2.map (Proc.devRef (τ := τ) .tc)).toFinset := by
  stretch_writes

/-- A buffer stretch D2 does not write keeps its contents through it. -/
theorem keepD2 (V : Valuation τ sig (Elt F)) (r : Ref sig .tc) (h : r ∉ WD2) :
    after opsD2 V (Proc.devRef .tc r) = V (Proc.devRef .tc r) :=
  after_of_writes_sub opsD2 V opsD2_writes h

set_option maxRecDepth 8192 in
set_option maxHeartbeats 2000000 in
/-- Stretch D2 leaves the distances of the pair it reads. -/
theorem valD2 (V : Valuation τ sig (Elt F)) :
    after opsD2 V (Proc.devRef .tc main_v93) = refDist (V (Proc.devRef .tc main_v69)) (V (Proc.devRef .tc main_v77)) := by
  simp only [opsD2]
  after_results_simp
  rfl

set_option maxRecDepth 8192 in
theorem opsL3_writes : (opsL3 : List (HloOp τ sig (Elt F))).Forall fun op =>
    op.writes ⊆ (WL3.map (Proc.devRef (τ := τ) .tc)).toFinset := by
  stretch_writes

/-- A buffer stretch L3 does not write keeps its contents through it. -/
theorem keepL3 (V : Valuation τ sig (Elt F)) (r : Ref sig .tc) (h : r ∉ WL3) :
    after opsL3 V (Proc.devRef .tc r) = V (Proc.devRef .tc r) :=
  after_of_writes_sub opsL3 V opsL3_writes h

set_option maxRecDepth 8192 in
set_option maxHeartbeats 4000000 in
/-- Stretch L3 leaves the updated heads … -/
theorem valL3_h (V : Valuation τ sig (Elt F)) :
    after opsL3 V (Proc.devRef .tc main_v108)
      = refUpdH (V (Proc.devRef .tc main_arg2)) (V (Proc.devRef .tc main_arg4)) (V (Proc.devRef .tc main_v93)) (V (Proc.devRef .tc main_v69)) (V (Proc.devRef .tc main_v77)) := by
  simp only [opsL3]
  after_results_simp
  rfl

set_option maxRecDepth 8192 in
set_option maxHeartbeats 4000000 in
/-- … and the updated dependents. -/
theorem valL3_d (V : Valuation τ sig (Elt F)) :
    after opsL3 V (Proc.devRef .tc main_v116)
      = refUpdD (V (Proc.devRef .tc main_arg3)) (V (Proc.devRef .tc main_arg5)) (V (Proc.devRef .tc main_v93)) (V (Proc.devRef .tc main_v69)) (V (Proc.devRef .tc main_v77)) := by
  simp only [opsL3]
  after_results_simp
  rfl

set_option maxRecDepth 8192 in
theorem opsD3_writes : (opsD3 : List (HloOp τ sig (Elt F))).Forall fun op =>
    op.writes ⊆ (WD3.map (Proc.devRef (τ := τ) .tc)).toFinset := by
  stretch_writes

/-- A buffer stretch D3 does not write keeps its contents through it. -/
theorem keepD3 (V : Valuation τ sig (Elt F)) (r : Ref sig .tc) (h : r ∉ WD3) :
    after opsD3 V (Proc.devRef .tc r) = V (Proc.devRef .tc r) :=
  after_of_writes_sub opsD3 V opsD3_writes h

set_option maxRecDepth 8192 in
set_option maxHeartbeats 2000000 in
/-- Stretch D3 leaves the distances of the pair it reads. -/
theorem valD3 (V : Valuation τ sig (Elt F)) :
    after opsD3 V (Proc.devRef .tc main_v132) = refDist (V (Proc.devRef .tc main_v108)) (V (Proc.devRef .tc main_v116)) := by
  simp only [opsD3]
  after_results_simp
  rfl

/-! ## Composed -/

/-- An argument keeps its contents through all seven stretches: no operation writes it. -/
theorem arg_kept (V : Valuation τ sig (Elt F)) (r : Ref sig .tc)
    (h0 : r ∉ WD0) (h1 : r ∉ WL1) (h2 : r ∉ WD1) (h3 : r ∉ WL2) (h4 : r ∉ WD2) (h5 : r ∉ WL3) (h6 : r ∉ WD3) :
    after ops V (Proc.devRef .tc r) = V (Proc.devRef .tc r) := by
  simp only [ops, after_app]
  rw [keepD3 _ r h6, keepL3 _ r h5, keepD2 _ r h4, keepL2 _ r h3, keepD1 _ r h2, keepL1 _ r h1, keepD0 _ r h0]

set_option maxRecDepth 8192 in
/-- The result buffer after all the operations, from any contents, is `refOut` of the arguments' contents: each
    stretch's result read by its lemma, the contents it reads carried back through the stretches before it. -/
theorem out_eq (V : Valuation τ sig (Elt F)) :
    after ops V (Proc.devRef .tc main_v132)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  simp only [ops, after_app]
  -- the last distances, of the third layer's pair
  rw [valD3, valL3_h, valL3_d]
  -- the third layer read the second's distances and pair; the parameters are as at the start
  rw [valD2, keepD2 _ main_v69 (by decide), keepD2 _ main_v77 (by decide),
    keepD2 _ main_arg2 (by decide), keepD2 _ main_arg3 (by decide), keepD2 _ main_arg4 (by decide), keepD2 _ main_arg5 (by decide)]
  rw [valL2_h, valL2_d,
    keepL2 _ main_arg2 (by decide), keepL2 _ main_arg3 (by decide), keepL2 _ main_arg4 (by decide), keepL2 _ main_arg5 (by decide)]
  rw [valD1, keepD1 _ main_v30 (by decide), keepD1 _ main_v38 (by decide),
    keepD1 _ main_arg2 (by decide), keepD1 _ main_arg3 (by decide), keepD1 _ main_arg4 (by decide), keepD1 _ main_arg5 (by decide)]
  rw [valL1_h, valL1_d,
    keepL1 _ main_arg2 (by decide), keepL1 _ main_arg3 (by decide), keepL1 _ main_arg4 (by decide), keepL1 _ main_arg5 (by decide)]
  rw [valD0, keepD0 _ main_arg0 (by decide), keepD0 _ main_arg1 (by decide),
    keepD0 _ main_arg2 (by decide), keepD0 _ main_arg3 (by decide), keepD0 _ main_arg4 (by decide), keepD0 _ main_arg5 (by decide)]
  rfl

/-! ## The run -/

/-- On every device, from any memory with zero counters: every weakly fair execution of the reference terminates with
    its result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v132)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v132).trans (out_eq _),
      (h c main_arg0).trans (arg_kept _ main_arg0 (by decide) (by decide) (by decide) (by decide) (by decide) (by decide) (by decide)),
      (h c main_arg1).trans (arg_kept _ main_arg1 (by decide) (by decide) (by decide) (by decide) (by decide) (by decide) (by decide)),
      (h c main_arg2).trans (arg_kept _ main_arg2 (by decide) (by decide) (by decide) (by decide) (by decide) (by decide) (by decide)),
      (h c main_arg3).trans (arg_kept _ main_arg3 (by decide) (by decide) (by decide) (by decide) (by decide) (by decide) (by decide)),
      (h c main_arg4).trans (arg_kept _ main_arg4 (by decide) (by decide) (by decide) (by decide) (by decide) (by decide) (by decide)),
      (h c main_arg5).trans (arg_kept _ main_arg5 (by decide) (by decide) (by decide) (by decide) (by decide) (by decide) (by decide))⟩)
    (run_seq scopedRefs_eq scopedSems_eq defs main (fun _ => ops) main_eq (fun _ => ops_sub) m ρ)

end Cert.ReferenceIdeal.RefRun

end
-- ==== Proof.RefValue.lean ====
/-
  The reference's stretches read at an index, on the extended reals: entry `b` of each batched function is the
  specification's function of entry `b` of its operands.
-/
import proofs.«114613_j33517924778635_1_alg».proof.Proof.RefDefs
import proofs.«114613_j33517924778635_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.Layers

open Cert.ReferenceIdeal Cert.ReferenceIdeal.Gen Cert.Spec Idealize.ShloMosaic Idealize.ShloMosaic.ValueIdx

/-! ## The layout operations at an index -/

section Layout
variable {α : Type}

/-- A scalar broadcast over the batch of square matrices reads the scalar. -/
theorem bcastScalarSq_apply (x : S_.Idx → α) (b : Fin 16) (i j : Fin 1024) :
    broadcastInDim S16x1024x1024 ![] bcast_S_S16x1024x1024 x (ix3 b i j) = x ix0 := by
  unfold broadcastInDim
  exact congrArg x (funext fun a => a.elim0)

/-- A scalar broadcast over the batch of 1024 × 300 arrays reads the scalar. -/
theorem bcastScalarMat_apply (x : S_.Idx → α) (b : Fin 16) (i : Fin 1024) (k : Fin 300) :
    broadcastInDim S16x1024x300 ![] bcast_S_S16x1024x300 x (ix3 b i k) = x ix0 := by
  unfold broadcastInDim
  exact congrArg x (funext fun a => a.elim0)

/-- A per-row value broadcast along the columns: at `(b, i, j)` it reads the value of row `i` of entry `b`. -/
theorem bcastRows_apply (x : S16x1024.Idx → α) (b : Fin 16) (i j : Fin 1024) :
    broadcastInDim S16x1024x1024 ![0, 1, 2] bcast_S16x1024x1_S16x1024x1024_0_1_2
      (broadcastInDim S16x1024x1 ![0, 1] bcast_S16x1024_S16x1024x1_0_1 x) (ix3 b i j) = x (ix2 b i) := by
  refine (broadcastInDim_apply _ _ _ (ix3 b i j) (ix3 b i (0 : Fin 1))
    (fun a => match a with | ⟨0, _⟩ => rfl | ⟨1, _⟩ => rfl | ⟨2, _⟩ => rfl)).trans ?_
  exact broadcastInDim_apply _ _ _ _ (ix2 b i) (fun a => match a with | ⟨0, _⟩ => rfl | ⟨1, _⟩ => rfl)

/-- A per-row value broadcast along the rows: at `(b, i, j)` it reads the value of row `j` of entry `b`. -/
theorem bcastCols_apply (x : S16x1024.Idx → α) (b : Fin 16) (i j : Fin 1024) :
    broadcastInDim S16x1024x1024 ![0, 1, 2] bcast_S16x1x1024_S16x1024x1024_0_1_2
      (broadcastInDim S16x1x1024 ![0, 2] bcast_S16x1024_S16x1x1024_0_2 x) (ix3 b i j) = x (ix2 b j) := by
  refine (broadcastInDim_apply _ _ _ (ix3 b i j) (ix3 b (0 : Fin 1) j)
    (fun a => match a with | ⟨0, _⟩ => rfl | ⟨1, _⟩ => rfl | ⟨2, _⟩ => rfl)).trans ?_
  exact broadcastInDim_apply _ _ _ _ (ix2 b j) (fun a => match a with | ⟨0, _⟩ => rfl | ⟨1, _⟩ => rfl)

/-- A parameter array repeated over the batch reads the parameter at the row and column. -/
theorem refRep_apply {F : FTy → Type} [FloatOps F] (W : FVec F S1024x300 .f32) (b : Fin 16) (i : Fin 1024) (k : Fin 300) :
    refRep W (ix3 b i k) = W (ix2 i k) := by
  unfold refRep
  refine (broadcastInDim_apply _ _ _ (ix3 b i k) (ix3 (0 : Fin 1) i k)
    (fun a => match a with | ⟨0, _⟩ => rfl | ⟨1, _⟩ => rfl | ⟨2, _⟩ => rfl)).trans ?_
  exact broadcastInDim_apply _ _ _ _ (ix2 i k) (fun a => match a with | ⟨0, _⟩ => rfl | ⟨1, _⟩ => rfl)

/-- Each matrix of the batch transposed: at `(b, i, j)` it reads `(b, j, i)`. -/
theorem refT_apply {F : FTy → Type} [FloatOps F] (s : FVec F S16x1024x1024 .f32) (b : Fin 16) (i j : Fin 1024) :
    refT s (ix3 b i j) = s (ix3 b j i) := by
  unfold refT
  exact transpose_apply _ s _ _ _ fun c => match c with | ⟨0, _⟩ => rfl | ⟨1, _⟩ => rfl | ⟨2, _⟩ => rfl

end Layout

/-! ## The row norms -/

/-- The reduced shape: the batch of 1024 × 300 arrays summed over its columns. -/
theorem reduces_cols : S16x1024x300.Reduces [2] S16x1024 := by decide

/-- The index over `(b, i)` with column `k` inserted is `(b, i, k)`. -/
theorem lift_cols (b : Fin 16) (i : Fin 1024) (k : Fin 300) :
    reduces_cols.lift (ix2 b i) k = ix3 b i k :=
  funext fun c => Fin.ext (match c with | ⟨0, _⟩ => rfl | ⟨1, _⟩ => rfl | ⟨2, _⟩ => rfl)

/-- The batch's sums of squares over the columns, from the literal zero: at `(b, i)` the squared norm of row `i` of
    entry `b`. -/
theorem sqnorms_apply (x : FVec Ideal S16x1024x300 .f32) (b : Fin 16) (i : Fin 1024) :
    Host.reduceAdd (F := Ideal) (mulf x x) (constant (F := Ideal) S_ .f32 0x00000000#32)
        reducesTo_S16x1024x300_S16x1024_d2 h_S_ (ix2 b i)
      = sqnorm (slice3 x b) i := by
  show Ideal.hostReduceAdd reducesTo_S16x1024x300_S16x1024_d2 (mulf x x) (Ideal.ofBits .f32 0x00000000#32) (ix2 b i) = _
  rw [Ideal.hostReduceAdd_single reducesTo_S16x1024x300_S16x1024_d2 reduces_cols, Ideal.ofBits_zero_f32, zero_add]
  show (∑ k : Fin 300, mulf x x (reduces_cols.lift (ix2 b i) k)) = ∑ k : Fin 300, x (ix3 b i k) * x (ix3 b i k)
  refine Finset.sum_congr rfl fun k _ => ?_
  rw [lift_cols]
  rfl

/-! ## The batched products -/

/-- The distance's product at `(b, i, j)`, contraction index `q`: the left operand's index is `(b, i, q)` … -/
theorem lhs_distDot_0 (i : S16x1024x1024.Idx) (q : dot_S16x1024x300_S16x1024x300_S16x1024x1024_2_2_1_1_0_0.contr.Idx) :
    (dot_S16x1024x300_S16x1024x300_S16x1024x1024_2_2_1_1_0_0.lhsIdx i q 0).val = (i 0).val := by
  unfold DotDims.lhsIdx
  rw [dif_pos (show (0 : Fin S16x1024x300.rank) ∈ dot_S16x1024x300_S16x1024x300_S16x1024x1024_2_2_1_1_0_0.lhsBatch by decide)]
  rfl
theorem lhs_distDot_1 (i : S16x1024x1024.Idx) (q : dot_S16x1024x300_S16x1024x300_S16x1024x1024_2_2_1_1_0_0.contr.Idx) :
    (dot_S16x1024x300_S16x1024x300_S16x1024x1024_2_2_1_1_0_0.lhsIdx i q 1).val = (i 1).val := by
  unfold DotDims.lhsIdx
  rw [dif_neg (show ¬(1 : Fin S16x1024x300.rank) ∈ dot_S16x1024x300_S16x1024x300_S16x1024x1024_2_2_1_1_0_0.lhsBatch by decide),
    dif_pos (show (1 : Fin S16x1024x300.rank) ∈ dot_S16x1024x300_S16x1024x300_S16x1024x1024_2_2_1_1_0_0.lhsNonContracting by decide)]
  rfl
theorem lhs_distDot_2 (i : S16x1024x1024.Idx) (q : dot_S16x1024x300_S16x1024x300_S16x1024x1024_2_2_1_1_0_0.contr.Idx) :
    (dot_S16x1024x300_S16x1024x300_S16x1024x1024_2_2_1_1_0_0.lhsIdx i q 2).val = (q ⟨0, by decide⟩).val :=
  dot_S16x1024x300_S16x1024x300_S16x1024x1024_2_2_1_1_0_0.lhsIdx_val_of_single rfl i q
/-- … and the right operand's is `(b, j, q)`. -/
theorem rhs_distDot_0 (i : S16x1024x1024.Idx) (q : dot_S16x1024x300_S16x1024x300_S16x1024x1024_2_2_1_1_0_0.contr.Idx) :
    (dot_S16x1024x300_S16x1024x300_S16x1024x1024_2_2_1_1_0_0.rhsIdx i q 0).val = (i 0).val := by
  unfold DotDims.rhsIdx
  rw [dif_pos (show (0 : Fin S16x1024x300.rank) ∈ dot_S16x1024x300_S16x1024x300_S16x1024x1024_2_2_1_1_0_0.rhsBatch by decide)]
  rfl
theorem rhs_distDot_1 (i : S16x1024x1024.Idx) (q : dot_S16x1024x300_S16x1024x300_S16x1024x1024_2_2_1_1_0_0.contr.Idx) :
    (dot_S16x1024x300_S16x1024x300_S16x1024x1024_2_2_1_1_0_0.rhsIdx i q 1).val = (i 2).val := by
  unfold DotDims.rhsIdx
  rw [dif_neg (show ¬(1 : Fin S16x1024x300.rank) ∈ dot_S16x1024x300_S16x1024x300_S16x1024x1024_2_2_1_1_0_0.rhsBatch by decide),
    dif_pos (show (1 : Fin S16x1024x300.rank) ∈ dot_S16x1024x300_S16x1024x300_S16x1024x1024_2_2_1_1_0_0.rhsNonContracting by decide)]
  rfl
theorem rhs_distDot_2 (i : S16x1024x1024.Idx) (q : dot_S16x1024x300_S16x1024x300_S16x1024x1024_2_2_1_1_0_0.contr.Idx) :
    (dot_S16x1024x300_S16x1024x300_S16x1024x1024_2_2_1_1_0_0.rhsIdx i q 2).val = (q ⟨0, by decide⟩).val :=
  dot_S16x1024x300_S16x1024x300_S16x1024x1024_2_2_1_1_0_0.rhsIdx_val_of_single rfl i q

/-- The distance's batched product over the 300 columns: at `(b, i, j)` the inner product of row `i` of `h`'s entry `b`
    with row `j` of `d`'s. -/
theorem distDot_apply (h d : FVec Ideal S16x1024x300 .f32) (b : Fin 16) (i j : Fin 1024) :
    Host.dotGeneral (F := Ideal) dot_S16x1024x300_S16x1024x300_S16x1024x1024_2_2_1_1_0_0 none h d (ix3 b i j)
      = Cert.Spec.inner (slice3 h b) (slice3 d b) i j := by
  simp only [Host.dotGeneral]
  rw [Ideal.dotGeneral_apply,
    ← Equiv.sum_comp (contrEquiv1 dot_S16x1024x300_S16x1024x300_S16x1024x1024_2_2_1_1_0_0 300 rfl rfl).symm]
  unfold Cert.Spec.inner slice3
  refine Finset.sum_congr rfl fun k _ => ?_
  have hk := contrEquiv1_symm_val dot_S16x1024x300_S16x1024x300_S16x1024x1024_2_2_1_1_0_0 300 rfl rfl k
  have el : dot_S16x1024x300_S16x1024x300_S16x1024x1024_2_2_1_1_0_0.lhsIdx (ix3 b i j)
      ((contrEquiv1 dot_S16x1024x300_S16x1024x300_S16x1024x1024_2_2_1_1_0_0 300 rfl rfl).symm k) = ix3 b i k :=
    funext fun a => Fin.ext (by
      match a with
      | ⟨0, _⟩ => exact lhs_distDot_0 _ _
      | ⟨1, _⟩ => exact lhs_distDot_1 _ _
      | ⟨2, _⟩ => exact (lhs_distDot_2 _ _).trans hk)
  have er : dot_S16x1024x300_S16x1024x300_S16x1024x1024_2_2_1_1_0_0.rhsIdx (ix3 b i j)
      ((contrEquiv1 dot_S16x1024x300_S16x1024x300_S16x1024x1024_2_2_1_1_0_0 300 rfl rfl).symm k) = ix3 b j k :=
    funext fun a => Fin.ext (by
      match a with
      | ⟨0, _⟩ => exact rhs_distDot_0 _ _
      | ⟨1, _⟩ => exact rhs_distDot_1 _ _
      | ⟨2, _⟩ => exact (rhs_distDot_2 _ _).trans hk)
  rw [el, er]

/-- The update's product at `(b, i, k)`, contraction index `q`: the left operand's index is `(b, i, q)` … -/
theorem lhs_updDot_0 (i : S16x1024x300.Idx) (q : dot_S16x1024x1024_S16x1024x300_S16x1024x300_2_1_1_2_0_0.contr.Idx) :
    (dot_S16x1024x1024_S16x1024x300_S16x1024x300_2_1_1_2_0_0.lhsIdx i q 0).val = (i 0).val := by
  unfold DotDims.lhsIdx
  rw [dif_pos (show (0 : Fin S16x1024x1024.rank) ∈ dot_S16x1024x1024_S16x1024x300_S16x1024x300_2_1_1_2_0_0.lhsBatch by decide)]
  rfl
theorem lhs_updDot_1 (i : S16x1024x300.Idx) (q : dot_S16x1024x1024_S16x1024x300_S16x1024x300_2_1_1_2_0_0.contr.Idx) :
    (dot_S16x1024x1024_S16x1024x300_S16x1024x300_2_1_1_2_0_0.lhsIdx i q 1).val = (i 1).val := by
  unfold DotDims.lhsIdx
  rw [dif_neg (show ¬(1 : Fin S16x1024x1024.rank) ∈ dot_S16x1024x1024_S16x1024x300_S16x1024x300_2_1_1_2_0_0.lhsBatch by decide),
    dif_pos (show (1 : Fin S16x1024x1024.rank) ∈ dot_S16x1024x1024_S16x1024x300_S16x1024x300_2_1_1_2_0_0.lhsNonContracting by decide)]
  rfl
theorem lhs_updDot_2 (i : S16x1024x300.Idx) (q : dot_S16x1024x1024_S16x1024x300_S16x1024x300_2_1_1_2_0_0.contr.Idx) :
    (dot_S16x1024x1024_S16x1024x300_S16x1024x300_2_1_1_2_0_0.lhsIdx i q 2).val = (q ⟨0, by decide⟩).val :=
  dot_S16x1024x1024_S16x1024x300_S16x1024x300_2_1_1_2_0_0.lhsIdx_val_of_single rfl i q
/-- … and the right operand's is `(b, q, k)`. -/
theorem rhs_updDot_0 (i : S16x1024x300.Idx) (q : dot_S16x1024x1024_S16x1024x300_S16x1024x300_2_1_1_2_0_0.contr.Idx) :
    (dot_S16x1024x1024_S16x1024x300_S16x1024x300_2_1_1_2_0_0.rhsIdx i q 0).val = (i 0).val := by
  unfold DotDims.rhsIdx
  rw [dif_pos (show (0 : Fin S16x1024x300.rank) ∈ dot_S16x1024x1024_S16x1024x300_S16x1024x300_2_1_1_2_0_0.rhsBatch by decide)]
  rfl
theorem rhs_updDot_1 (i : S16x1024x300.Idx) (q : dot_S16x1024x1024_S16x1024x300_S16x1024x300_2_1_1_2_0_0.contr.Idx) :
    (dot_S16x1024x1024_S16x1024x300_S16x1024x300_2_1_1_2_0_0.rhsIdx i q 1).val = (q ⟨0, by decide⟩).val :=
  dot_S16x1024x1024_S16x1024x300_S16x1024x300_2_1_1_2_0_0.rhsIdx_val_of_single rfl i q
theorem rhs_updDot_2 (i : S16x1024x300.Idx) (q : dot_S16x1024x1024_S16x1024x300_S16x1024x300_2_1_1_2_0_0.contr.Idx) :
    (dot_S16x1024x1024_S16x1024x300_S16x1024x300_2_1_1_2_0_0.rhsIdx i q 2).val = (i 2).val := by
  unfold DotDims.rhsIdx
  rw [dif_neg (show ¬(2 : Fin S16x1024x300.rank) ∈ dot_S16x1024x1024_S16x1024x300_S16x1024x300_2_1_1_2_0_0.rhsBatch by decide),
    dif_pos (show (2 : Fin S16x1024x300.rank) ∈ dot_S16x1024x1024_S16x1024x300_S16x1024x300_2_1_1_2_0_0.rhsNonContracting by decide)]
  rfl

/-- The batched product of square matrices with 1024 × 300 arrays: at `(b, i, k)` the sum over the 1024 rows `j` of
    `s (b, i, j) · x (b, j, k)`. -/
theorem refMM_apply (s : FVec Ideal S16x1024x1024 .f32) (x : FVec Ideal S16x1024x300 .f32) (b : Fin 16) (i : Fin 1024)
    (k : Fin 300) : refMM (F := Ideal) s x (ix3 b i k) = ∑ j : Fin 1024, s (ix3 b i j) * x (ix3 b j k) := by
  unfold refMM
  simp only [Host.dotGeneral]
  rw [Ideal.dotGeneral_apply,
    ← Equiv.sum_comp (contrEquiv1 dot_S16x1024x1024_S16x1024x300_S16x1024x300_2_1_1_2_0_0 1024 rfl rfl).symm]
  refine Finset.sum_congr rfl fun j _ => ?_
  have hj := contrEquiv1_symm_val dot_S16x1024x1024_S16x1024x300_S16x1024x300_2_1_1_2_0_0 1024 rfl rfl j
  have el : dot_S16x1024x1024_S16x1024x300_S16x1024x300_2_1_1_2_0_0.lhsIdx (ix3 b i k)
      ((contrEquiv1 dot_S16x1024x1024_S16x1024x300_S16x1024x300_2_1_1_2_0_0 1024 rfl rfl).symm j) = ix3 b i j :=
    funext fun a => Fin.ext (by
      match a with
      | ⟨0, _⟩ => exact lhs_updDot_0 _ _
      | ⟨1, _⟩ => exact lhs_updDot_1 _ _
      | ⟨2, _⟩ => exact (lhs_updDot_2 _ _).trans hj)
  have er : dot_S16x1024x1024_S16x1024x300_S16x1024x300_2_1_1_2_0_0.rhsIdx (ix3 b i k)
      ((contrEquiv1 dot_S16x1024x1024_S16x1024x300_S16x1024x300_2_1_1_2_0_0 1024 rfl rfl).symm j) = ix3 b j k :=
    funext fun a => Fin.ext (by
      match a with
      | ⟨0, _⟩ => exact rhs_updDot_0 _ _
      | ⟨1, _⟩ => exact (rhs_updDot_1 _ _).trans hj
      | ⟨2, _⟩ => exact rhs_updDot_2 _ _)
  rw [el, er]

/-! ## The pointwise stretches -/

/-- The host's square root at an index is the extended reals' square root of the element. -/
theorem hostSqrt_apply {s : Shape} (x : FVec Ideal s .f32) (idx : s.Idx) : Host.sqrt x idx = Ideal.sqrt (x idx) := rfl

/-- The leaky rectifier over a batch, at an index, is the rectifier of the element. -/
theorem refLrelu_apply (x : FVec Ideal S16x1024x300 .f32) (b : Fin 16) (i : Fin 1024) (k : Fin 300) :
    refLrelu (F := Ideal) x (ix3 b i k) = lrelu (x (ix3 b i k)) := by
  unfold refLrelu
  rw [select_apply, cmpf_apply, mulf_apply, bcastScalarMat_apply, bcastScalarMat_apply]
  rfl

/-! ## The reference's three stretches at an index -/

theorem refDist_apply (h d : FVec Ideal S16x1024x300 .f32) (b : Fin 16) (i j : Fin 1024) :
    refDist (F := Ideal) h d (ix3 b i j) = dist (slice3 h b) (slice3 d b) i j := by
  unfold refDist
  rw [hostSqrt_apply, maximumf_apply, subf_apply, addf_apply, mulf_apply, bcastRows_apply, bcastCols_apply,
    bcastScalarSq_apply, bcastScalarSq_apply, sqnorms_apply, sqnorms_apply, distDot_apply]
  rfl

theorem refUpdH_apply (W B : FVec Ideal S1024x300 .f32) (s : FVec Ideal S16x1024x1024 .f32)
    (h d : FVec Ideal S16x1024x300 .f32) (b : Fin 16) (i : Fin 1024) (k : Fin 300) :
    refUpdH (F := Ideal) W B s h d (ix3 b i k)
      = updH (mat2 W) (mat2 B) (sqslice3 s b) (slice3 h b) (slice3 d b) i k := by
  unfold refUpdH
  rw [refLrelu_apply]
  simp only [addf_apply, mulf_apply, refRep_apply, refMM_apply, refT_apply]
  rfl

theorem refUpdD_apply (W B : FVec Ideal S1024x300 .f32) (s : FVec Ideal S16x1024x1024 .f32)
    (h d : FVec Ideal S16x1024x300 .f32) (b : Fin 16) (i : Fin 1024) (k : Fin 300) :
    refUpdD (F := Ideal) W B s h d (ix3 b i k)
      = updD (mat2 W) (mat2 B) (sqslice3 s b) (slice3 h b) (slice3 d b) i k := by
  unfold refUpdD
  rw [refLrelu_apply]
  simp only [addf_apply, mulf_apply, refRep_apply, refMM_apply, refT_apply]
  rfl

end Cert.ReferenceIdeal.Layers

end
-- ==== Proof.RefOut.lean ====
/-
  The reference's whole result at an index: batch entry `b` of `refOut` of the six arguments is the specification's
  result of entry `b` of the two batched arguments and the four parameter arrays — a batched layer, read at entry
  `b`, is the specification's layer on entry `b` of its pair, three times over, then the distances.
-/
import proofs.«114613_j33517924778635_1_alg».proof.Proof.RefRun
import proofs.«114613_j33517924778635_1_alg».proof.Proof.RefValue
import proofs.«114613_j33517924778635_1_alg».proof.Proof.Spec

noncomputable section

namespace Cert.ReferenceIdeal.RefRun

open Cert.ReferenceIdeal Cert.ReferenceIdeal.Gen Cert.ReferenceIdeal.Layers Cert.Spec
open Idealize.ShloMosaic Idealize.ShloMosaic.ValueIdx

/-- Entry `b` of a batched layer is the specification's layer on entry `b` of the pair. -/
theorem refLayer_slice (a2 a3 a4 a5 : FVec Ideal S1024x300 .f32)
    (P : FVec Ideal S16x1024x300 .f32 × FVec Ideal S16x1024x300 .f32) (b : Fin 16) :
    (slice3 (refLayer a2 a3 a4 a5 P).1 b, slice3 (refLayer a2 a3 a4 a5 P).2 b)
      = layer (mat2 a2) (mat2 a4) (mat2 a3) (mat2 a5) (slice3 P.1 b, slice3 P.2 b) := by
  have hs : sqslice3 (refDist P.1 P.2) b = dist (slice3 P.1 b) (slice3 P.2 b) :=
    funext fun i => funext fun j => refDist_apply P.1 P.2 b i j
  refine Prod.ext (funext fun i => funext fun k => ?_) (funext fun i => funext fun k => ?_)
  · show refUpdH a2 a4 (refDist P.1 P.2) P.1 P.2 (ix3 b i k) = _
    rw [refUpdH_apply, hs]; rfl
  · show refUpdD a3 a5 (refDist P.1 P.2) P.1 P.2 (ix3 b i k) = _
    rw [refUpdD_apply, hs]; rfl

/-- The reference's result at batch entry `b`, row `p`, column `q`. -/
theorem refOut_apply (a0 a1 : FVec Ideal S16x1024x300 .f32) (a2 a3 a4 a5 : FVec Ideal S1024x300 .f32)
    (b : Fin 16) (p q : Fin 1024) :
    refOut (F := Ideal) a0 a1 a2 a3 a4 a5 (ix3 b p q)
      = out (mat2 a2) (mat2 a3) (mat2 a4) (mat2 a5) (slice3 a0 b) (slice3 a1 b) p q := by
  unfold refOut
  rw [refDist_apply]
  have h1 := refLayer_slice a2 a3 a4 a5 (a0, a1) b
  have h2 := refLayer_slice a2 a3 a4 a5 (refLayer a2 a3 a4 a5 (a0, a1)) b
  have h3 := refLayer_slice a2 a3 a4 a5 (refLayer a2 a3 a4 a5 (refLayer a2 a3 a4 a5 (a0, a1))) b
  rw [h2, h1] at h3
  unfold out
  rw [← h3]

end Cert.ReferenceIdeal.RefRun

end
-- ==== Proof.lean ====
/-
  The kernel and its reference compute one function of their arguments over the extended reals.

  Per batch entry the function is: from the entry's heads and dependents, three layers — each the leaky rectifier of a
  parameter times the sum of the pair's two products with their distance matrix (or its transpose) plus a parameter
  times the array itself —, then the distance matrix of the pair that results (Proof/Spec.lean).

  The kernel runs one grid point per batch entry, the three layers a pure loop on the loaded blocks, and writes the
  point's distance matrix back as the entry's block of the result (Proof/KerPay.lean: its pure values at an index;
  Proof/KerRun.lean: its run read back, the result array named). The reference runs the same operations on the whole
  batch, layer after layer (Proof/RefRun.lean: its run read back as one function of the arguments; Proof/RefValue.lean,
  Proof/RefOut.lean: that function at an index). Index by index both are the specification's result: in both, a row's
  squared norm and a matrix product are sums over the same finite index, whatever their order, every other operation is
  entrywise and the same on both sides, and a change of float format is the identity. No entry's finiteness is used.

  Each program's frame is its run with the result dropped; the idealization rewrote nothing.
-/
import proofs.«114613_j33517924778635_1_alg».proof.Defs
import proofs.«114613_j33517924778635_1_alg».proof.Proof.Gen.Kernel
import proofs.«114613_j33517924778635_1_alg».proof.Proof.Gen.Kernel.Frame
import proofs.«114613_j33517924778635_1_alg».proof.Proof.Gen.KernelIdeal
import proofs.«114613_j33517924778635_1_alg».proof.Proof.Gen.KernelIdeal.Frame
import proofs.«114613_j33517924778635_1_alg».proof.Proof.Gen.KernelIdeal.Value
import proofs.«114613_j33517924778635_1_alg».proof.Proof.Gen.ReferenceIdeal
import proofs.«114613_j33517924778635_1_alg».proof.Proof.Gen.Pre_finite_inputs
import proofs.«114613_j33517924778635_1_alg».proof.Proof.KerRun
import proofs.«114613_j33517924778635_1_alg».proof.Proof.RefOut
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories that agree on the arguments both programs end with the result array at the specification's result
    of each batch entry: the kernel's run names it (`kerOut`), the reference's run ends at `refOut` of the same
    arguments, and index by index the two are the same value. -/
theorem algebraic : Cert.algebraic_KernelIdeal_ReferenceIdeal := by
  intro m ρ m' ρ' _ hagree
  refine ⟨fun c => Cert.KernelIdeal.KerRun.kerOut m c, Cert.KernelIdeal.KerRun.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5⟩ := hagree c
  rw [e0, e1, e2, e3, e4, e5]
  funext idx
  obtain ⟨b, p, q, rfl⟩ : ∃ (b : Fin 16) (p q : Fin 1024), idx = ix3 b p q := ⟨idx 0, idx 1, idx 2, eq_ix3 idx⟩
  rw [Cert.ReferenceIdeal.RefRun.refOut_apply]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
